-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8192x128 .f32) (main_arg1 : IVec S2x262144 32) (main_arg2 : FVec F S128x128 .f32) (main_arg3 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8192x128 : Shape := ⟨2, ![8192, 128]⟩
abbrev S2x262144 : Shape := ⟨2, ![2, 262144]⟩
abbrev S128x128 : Shape := ⟨2, ![128, 128]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1024x128 : Shape := ⟨2, ![1024, 128]⟩
abbrev S1024x4096 : Shape := ⟨2, ![1024, 4096]⟩
abbrev S4096x128 : Shape := ⟨2, ![4096, 128]⟩
abbrev S1024x1 : Shape := ⟨2, ![1024, 1]⟩

abbrev nBuf : Space → Nat
  | .hbm => 49
  | .vmem => 17
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128x128, .f32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S_, .bf16⟩
  | .hbm, ⟨9, _⟩ => ⟨S8192x8192, .bf16⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .bf16⟩
  | .hbm, ⟨28, _⟩ => ⟨S262144, .bf16⟩
  | .hbm, ⟨29, _⟩ => ⟨S8192x8192, .bf16⟩
  | .hbm, ⟨30, _⟩ => ⟨S_, .f32⟩
  | .hbm, ⟨31, _⟩ => ⟨S262144, .f32⟩
  | .hbm, ⟨32, _⟩ => ⟨S_, .f32⟩
  | .hbm, ⟨33, _⟩ => ⟨S8192, .f32⟩
  | .hbm, ⟨34, _⟩ => ⟨S262144x1, .i32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .i1⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x128, .bf16⟩
  | .hbm, ⟨48, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .bf16⟩
  | .local _ .vmem, ⟨4, _⟩ => ⟨S1024x128, .bf16⟩
  | .local _ .vmem, ⟨5, _⟩ => ⟨S1024x4096, .bf16⟩
  | .local _ .vmem, ⟨6, _⟩ => ⟨S1024x4096, .bf16⟩
  | .local _ .vmem, ⟨7, _⟩ => ⟨S4096x128, .bf16⟩
  | .local _ .vmem, ⟨8, _⟩ => ⟨S4096x128, .bf16⟩
  | .local _ .vmem, ⟨9, _⟩ => ⟨S1024x128, .f32⟩
  | .local _ .vmem, ⟨10, _⟩ => ⟨S1024x128, .f32⟩
  | .local _ .vmem, ⟨11, _⟩ => ⟨S128x128, .f32⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_call0_v0 : Ref sig .tc := ⟨.hbm, 40, rfl⟩
abbrev main_call0_v1 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S8192 : S_.BroadcastsInDim S8192 (![] : Fin 0 → Fin S8192.rank)
  shapeCasts_S8192_S8192x1 : S8192.ShapeCasts S8192x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  packedbf16_S1024x128_S1024x128_0_0 : (Rect.unit (s := S1024x128) ![0, 0] S1024x128.size inb_S1024x128_S1024x128_0_0).PackedRows (EltTy.packing .bf16)
  shapeCasts_S1024x128_S1024x128 : S1024x128.ShapeCasts S1024x128
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  scatter_S8192x8192_S262144x2_S262144_n_01_01_1_wf : ScatterDims.WF S8192x8192 S262144x2 S262144 [] [0, 1] [0, 1] 1
  scatter_S8192_S262144x1_S262144_n_0_0_1_wf : ScatterDims.WF S8192 S262144x1 S262144 [] [0] [0] 1
  dot_S1024x128_S128x128_S1024x128_1_0_0_1_n_n_wf : DotDims.WF S1024x128 S128x128 S1024x128 [1] [0] [0] [1] [] []
  dot_S1024x4096_S4096x128_S1024x128_1_0_0_1_n_n_wf : DotDims.WF S1024x4096 S4096x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x8192.size a
  hwx1_0 : ∀ i : grid1.Coords, EltTy.bits .bf16 = 32 ∨ (Rect.block (s := S8192x8192) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S8192x128.size a
  hwx1_1 : ∀ i : grid1.Coords, EltTy.bits .bf16 = 32 ∨ (Rect.block (s := S8192x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S8192x128.size a
  hwx1_5 : ∀ i : grid1.Coords, EltTy.bits .f32 = 32 ∨ (Rect.block (s := S8192x128) S1024x128.size (cc1_transform_5 i) (hinb1_5 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S2x262144 : Shape := ⟨2, ![2, 262144]⟩
abbrev S128x128 : Shape := ⟨2, ![128, 128]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128x128, .f32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S_, .f32⟩
  | .hbm, ⟨9, _⟩ => ⟨S8192x8192, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S_, .f32⟩
  | .hbm, ⟨31, _⟩ => ⟨S262144, .f32⟩
  | .hbm, ⟨32, _⟩ => ⟨S_, .f32⟩
  | .hbm, ⟨33, _⟩ => ⟨S8192, .f32⟩
  | .hbm, ⟨34, _⟩ => ⟨S262144x1, .i32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .i1⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S128x128, .f32⟩
  | .hbm, ⟨44, _⟩ => ⟨S8192x128, .f32⟩
  | .hbm, ⟨45, _⟩ => ⟨S8192x128, .f32⟩
  | .hbm, ⟨46, _⟩ => ⟨S8192x1, .f32⟩
  | .hbm, ⟨47, _⟩ => ⟨S8192x128, .f32⟩
  | .hbm, ⟨48, _⟩ => ⟨S8192x128, .f32⟩
  | .hbm, ⟨49, _⟩ => ⟨S128x128, .f32⟩
  | .hbm, ⟨50, _⟩ => ⟨S8192x128, .f32⟩
  | .hbm, ⟨51, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_call0_v0 : Ref sig .tc := ⟨.hbm, 40, rfl⟩
abbrev main_call0_v1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S8192 : S_.BroadcastsInDim S8192 (![] : Fin 0 → Fin S8192.rank)
  transposes_S128x128_S128x128_1_0 : S128x128.Transposes [1, 0] S128x128
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  scatter_S8192x8192_S262144x2_S262144_n_01_01_1_wf : ScatterDims.WF S8192x8192 S262144x2 S262144 [] [0, 1] [0, 1] 1
  scatter_S8192_S262144x1_S262144_n_0_0_1_wf : ScatterDims.WF S8192 S262144x1 S262144 [] [0] [0] 1
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.LibWholeStore.lean ====
/-
  A store through the rectangle that is a buffer's whole shape at zero offsets.

  Such a store overwrites every element, so the buffer afterwards reads as the stored value: what it held before, and
  whatever was stored into it earlier, no longer matters (`read_store_last`). A load through the same rectangle of what
  the stores so far left is read by the library's `View.readCov_unit_zero` and `View.ld_unit_zero`; `zero2` is the
  offset vector of a rank-2 buffer spelt as those lemmas ask for it.
-/
import Idealize.ShloMosaic.Lib.Pipeline.FrameBody
import Idealize.ShloMosaic.Lib.Pipeline.Value

namespace Cert.Lib.WholeStore

open Idealize.ShloMosaic

/-- The two zero offsets of a rank-2 rectangle are the constant zero function. -/
theorem zero2 : (![0, 0] : Fin 2 → Nat) = fun _ => 0 := by funext a; fin_cases a <;> rfl

/-- After a store through the whole-shape rectangle at zero offsets the buffer reads as what was stored, whatever it
    held and whatever the earlier stores `L` were: the last store covers every index, and the canonical reading of a
    list of stores takes the last one wherever it covers. -/
theorem read_store_last {Val : EltTy → Type} [∀ e, Nonempty (Val e)] {sig : RefSig} {κ : Kind} {sp : Space} {S : Shape} {e : EltTy}
    (v : View sig κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

end Cert.Lib.WholeStore
-- ==== Proof.K.Bodies.lean ====
/-
  The two kernels' bodies as triples over whole staging buffers, at any float values.

  Region 0's body loads a 1024-row block `xb` of x and the whole of W, and stores `k0_pay1 xb wb` (the block times Wᵀ)
  into the output block: `xw_body`.

  Region 1's body runs on the grid (row block, K block), two K blocks per row block. At the FIRST K block
  (`atFirstK`) it zeroes the scratch accumulator and adds this K block's product to it, leaving
  `k1_pay2 k1_pay1 a y`, and touches nothing else: `main_body_first`. At the LAST K block (`atLastK`) it adds this
  block's product to what the scratch held, `k1_pay2 s a y`, and stores `k1_pay3 x b (k1_pay2 s a y) q` — the
  accumulated product scaled row by row by `q`, plus the x block times Bᵀ — into the output block: `main_body_last`.
  Every store is of a whole buffer, so each buffer afterwards reads as its last payload (`read_store_last`).

  The two conditions in closed form over the 16 grid points: the first K block is at the even points, the last at the
  odd ones.
-/
import proofs.«115460_j79422535238375_1_alg».proof.Proof.Gen.Kernel.Launch
import proofs.«115460_j79422535238375_1_alg».proof.Proof.Gen.Kernel.Skeleton
import proofs.«115460_j79422535238375_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«115460_j79422535238375_1_alg».proof.Proof.LibWholeStore
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Lib.WholeStore

variable {F : FTy → Type} [FloatOps F]

local notation "𝕄" => MT nD τ sig Unit (Elt F) ℕ (UR sig nD τ) ℕ

/-! ## Region 0: a block of x times Wᵀ -/

set_option maxHeartbeats 1000000 in
/-- The body of region 0 on whole staging buffers: the x block at `xb`, W at `wb`, the output block at anything; it
    returns them with the output block at `k0_pay1 xb wb`. -/
theorem xw_body (c : Dev nD) (E : Set ℕ) (i : grid0.Coords)
    (ax : Memref sig .tc .vmem S1024x128 .f32) (hax : ax.IsWhole)
    (aw : Memref sig .tc .vmem S128x128 .f32) (haw : aw.IsWhole)
    (ay : Memref sig .tc .vmem S1024x128 .bf16) (hay : ay.IsWhole)
    (xb : Vec F S1024x128 .f32) (wb : Vec F S128x128 .f32) (K : PUnit → sProp 𝕄) :
    iprop(owns (c : Thread nD τ) ax fullShare xb ∗ owns (c : Thread nD τ) aw fullShare wb ∗ (∃ d, owns (c : Thread nD τ) ay fullShare d)
        ∗ (iprop(owns (c : Thread nD τ) ax fullShare xb ∗ owns (c : Thread nD τ) aw fullShare wb
            ∗ owns (c : Thread nD τ) ay fullShare (k0_pay1 xb wb)) -∗ K ⟨⟩))
      ⊢ wp frame (wpE (defs₀ (F := F)) Variants.none c none) E (cc0__xw_kernel_body i ax hax aw haw ay hay) K := by
  simp only [cc0__xw_kernel_body_eq_skeleton]; unfold cc0__xw_kernel_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_store_last _ _ zero2 _ _ _).trans ?_
  simp only [View.readAt_eq_ld, View.readCov_unit_zero (S := S1024x128) _ zero2, View.ld_unit_zero (S := S1024x128) zero2,
    View.ld_unit_zero (S := S1024x4096) zero2, View.ld_unit_zero (S := S4096x128) zero2, View.ld_unit_zero (S := S128x128) zero2,
    View.ld_unit_zero (S := S1024x1) zero2]

/-! ## Region 1: which K block a grid point is at -/

/-- The body's first branch (zero the accumulator) is taken where the K coordinate is 0. -/
abbrev atFirstK (i : grid1.Coords) : Prop :=
  (Scalar.cmpi .ne (Scalar.extui (Scalar.cmpi .eq (BitVec.ofNat 32 (i 1).val) 0#32)) 0#32) = 1#1
/-- Its last branch (scale, add the x·Bᵀ term, store the output) is taken where the K coordinate is 1. -/
abbrev atLastK (i : grid1.Coords) : Prop := k1_cond2 i = 1#1

/-- Points are numbered row block by row block, two K blocks each: the first K block is at the even points, -/
theorem atFirstK_iff : ∀ t : Fin cfg1.N, atFirstK (grid1.coords t) ↔ t.val % 2 = 0 :=
  (by decide +kernel : ∀ t : Fin grid1.N, atFirstK (grid1.coords t) ↔ t.val % 2 = 0)
/-- the last at the odd ones. -/
theorem atLastK_iff : ∀ t : Fin cfg1.N, atLastK (grid1.coords t) ↔ t.val % 2 = 1 :=
  (by decide +kernel : ∀ t : Fin grid1.N, atLastK (grid1.coords t) ↔ t.val % 2 = 1)

/-! ## Region 1: the body at a first K block -/

set_option maxHeartbeats 1000000 in
/-- At a first K block the body reads the adjacency block `a` and the block `y` of x·Wᵀ and leaves the scratch, whatever
    it held, at `k1_pay2 k1_pay1 a y`; the other four buffers it is passed are not touched (so not mentioned). -/
theorem main_body_first (c : Dev nD) (E : Set ℕ) (i : grid1.Coords) (hf : atFirstK i) (hl : ¬ atLastK i)
    (aA : Memref sig .tc .vmem S1024x4096 .bf16) (hA : aA.IsWhole) (aY : Memref sig .tc .vmem S4096x128 .bf16) (hY : aY.IsWhole)
    (aX : Memref sig .tc .vmem S1024x128 .f32) (hX : aX.IsWhole) (aB : Memref sig .tc .vmem S128x128 .f32) (hB : aB.IsWhole)
    (aQ : Memref sig .tc .vmem S1024x1 .f32) (hQ : aQ.IsWhole) (aO : Memref sig .tc .vmem S1024x128 .f32) (hO : aO.IsWhole)
    (aS : Memref sig .tc .vmem S1024x128 .f32) (hS : aS.IsWhole)
    (a : Vec F S1024x4096 .bf16) (y : Vec F S4096x128 .bf16) (K : PUnit → sProp 𝕄) :
    iprop(owns (c : Thread nD τ) aA fullShare a ∗ owns (c : Thread nD τ) aY fullShare y ∗ (∃ d, owns (c : Thread nD τ) aS fullShare d)
        ∗ (iprop(owns (c : Thread nD τ) aA fullShare a ∗ owns (c : Thread nD τ) aY fullShare y
            ∗ owns (c : Thread nD τ) aS fullShare (k1_pay2 k1_pay1 a y)) -∗ K ⟨⟩))
      ⊢ wp frame (wpE (defs₀ (F := F)) Variants.none c none) E (cc1__main_kernel_body i aA hA aY hY aX hX aB hB aQ hQ aO hO aS hS) K := by
  simp only [cc1__main_kernel_body_eq_skeleton]; unfold cc1__main_kernel_body_skel
  unfold owns
  iintro ⟨⟨%f0, %hf0, H0⟩, ⟨%f1, %hf1, H1⟩, ⟨%ds, %fs, -, HS⟩, Hk⟩
  subst hf0; subst hf1
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  refine (read_store_last _ _ zero2 _ _ _).trans ?_
  simp only [View.readAt_eq_ld, View.readCov_unit_zero (S := S1024x128) _ zero2, View.ld_unit_zero (S := S1024x128) zero2,
    View.ld_unit_zero (S := S1024x4096) zero2, View.ld_unit_zero (S := S4096x128) zero2, View.ld_unit_zero (S := S128x128) zero2,
    View.ld_unit_zero (S := S1024x1) zero2]

/-! ## Region 1: the body at a last K block -/

set_option maxHeartbeats 1000000 in
/-- At a last K block the body finds the scratch at `s`, leaves it at `k1_pay2 s a y`, and stores
    `k1_pay3 x b (k1_pay2 s a y) q` into the output block, whatever that held. -/
theorem main_body_last (c : Dev nD) (E : Set ℕ) (i : grid1.Coords) (hf : ¬ atFirstK i) (hl : atLastK i)
    (aA : Memref sig .tc .vmem S1024x4096 .bf16) (hA : aA.IsWhole) (aY : Memref sig .tc .vmem S4096x128 .bf16) (hY : aY.IsWhole)
    (aX : Memref sig .tc .vmem S1024x128 .f32) (hX : aX.IsWhole) (aB : Memref sig .tc .vmem S128x128 .f32) (hB : aB.IsWhole)
    (aQ : Memref sig .tc .vmem S1024x1 .f32) (hQ : aQ.IsWhole) (aO : Memref sig .tc .vmem S1024x128 .f32) (hO : aO.IsWhole)
    (aS : Memref sig .tc .vmem S1024x128 .f32) (hS : aS.IsWhole)
    (a : Vec F S1024x4096 .bf16) (y : Vec F S4096x128 .bf16) (x : Vec F S1024x128 .f32) (b : Vec F S128x128 .f32)
    (q : Vec F S1024x1 .f32) (s : Vec F S1024x128 .f32) (K : PUnit → sProp 𝕄) :
    iprop(owns (c : Thread nD τ) aA fullShare a ∗ owns (c : Thread nD τ) aY fullShare y ∗ owns (c : Thread nD τ) aX fullShare x
        ∗ owns (c : Thread nD τ) aB fullShare b ∗ owns (c : Thread nD τ) aQ fullShare q ∗ (∃ d, owns (c : Thread nD τ) aO fullShare d)
        ∗ owns (c : Thread nD τ) aS fullShare s
        ∗ (iprop(owns (c : Thread nD τ) aA fullShare a ∗ owns (c : Thread nD τ) aY fullShare y ∗ owns (c : Thread nD τ) aX fullShare x
            ∗ owns (c : Thread nD τ) aB fullShare b ∗ owns (c : Thread nD τ) aQ fullShare q
            ∗ owns (c : Thread nD τ) aO fullShare (k1_pay3 x b (k1_pay2 s a y) q)
            ∗ owns (c : Thread nD τ) aS fullShare (k1_pay2 s a y)) -∗ K ⟨⟩))
      ⊢ wp frame (wpE (defs₀ (F := F)) Variants.none c none) E (cc1__main_kernel_body i aA hA aY hY aX hX aB hB aQ hQ aO hO aS hS) K := by
  simp only [cc1__main_kernel_body_eq_skeleton]; unfold cc1__main_kernel_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    refine (read_store_last _ _ zero2 _ _ _).trans ?_
    simp only [View.readAt_eq_ld, View.readCov_unit_zero (S := S1024x128) _ zero2, View.ld_unit_zero (S := S1024x128) zero2,
    View.ld_unit_zero (S := S1024x4096) zero2, View.ld_unit_zero (S := S4096x128) zero2, View.ld_unit_zero (S := S128x128) zero2,
    View.ld_unit_zero (S := S1024x1) zero2]
  iexists _; isplitr
  swap; · iexact HS
  ipureintro
  sl_unfold_words
  refine (read_store_last _ _ zero2 _ _ _).trans ?_
  simp only [View.readAt_eq_ld, View.readCov_unit_zero (S := S1024x128) _ zero2, View.ld_unit_zero (S := S1024x128) zero2,
    View.ld_unit_zero (S := S1024x4096) zero2, View.ld_unit_zero (S := S4096x128) zero2, View.ld_unit_zero (S := S128x128) zero2,
    View.ld_unit_zero (S := S1024x1) zero2]

end Cert.Kernel.Hand

end
-- ==== Proof.K.Region0.lean ====
/-
  Region 0 as the pipeline runs it, from any contents `V` of the TensorCore's buffers at the region's entry.

  The grid has 8 points; point `t` stages rows 1024·t … 1024·t + 1023 of x (window 0), the whole of W (window 1, fetched
  once and left in place), and writes back rows 1024·t … of the output (window 2). `blk0 V c w t` is the block of
  window `w`'s array that point `t` stages, read off `V`. The body reads its two input buffers, leaves them as they
  were, and leaves the output buffer at `k0_pay1` of the two blocks (Bodies.lean, `xw_body`): that is the proof data
  `dat0`, whose invariant is the class's (`ΦA`: the kernel keeps nothing between points), and `body_obligation0` is the
  pipeline library's obligation for it.
-/
import proofs.«115460_j79422535238375_1_alg».proof.Proof.Gen.Kernel.Launch
import proofs.«115460_j79422535238375_1_alg».proof.Proof.Gen.Kernel.Skeleton
import proofs.«115460_j79422535238375_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«115460_j79422535238375_1_alg».proof.Proof.K.Bodies
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The block of window `w`'s array that point `t` of region 0 stages, read off the entry contents `V`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data on core `c`: the arrays as found; after the body at point `t` the x block and W in place and
    the output buffer at the x block times Wᵀ; nothing carried between points, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t) (blk0 V c 1 t)
  Φ _ := Pipeline.ΦA spec0 c
  q _ := fullShare
  owed _ := 0

theorem arr0 (c : Dev nD) (w : Fin cfg0.W) : (dat0 V c).A w = V c (Pipeline.arrRef spec0 w) := by dsimp only [dat0]
theorem after0_x (c : Dev nD) (t : Fin cfg0.N) : (dat0 V c).after 0 t = blk0 V c 0 t := by dsimp only [dat0]
theorem after0_w (c : Dev nD) (t : Fin cfg0.N) : (dat0 V c).after 1 t = blk0 V c 1 t := by dsimp only [dat0]
theorem after0_y (c : Dev nD) (t : Fin cfg0.N) : (dat0 V c).after 2 t = k0_pay1 (blk0 V c 0 t) (blk0 V c 1 t) := by dsimp only [dat0]

/-- When the body runs at point `t` the x window's buffer holds block `t` of x (it is fetched at every point), -/
theorem before0_x (c : Dev nD) (t : Fin cfg0.N) (d) : (dat0 V c).before 0 t d = blk0 V c 0 t :=
  ((dat0 V c).before_in_eq_fetched 0 rfl (fun _ => rfl) (fun _ _ _ => rfl)
    (fun t => by rw [after0_x]; unfold Dat.blockOf blk0; rw [arr0]; try rfl) t d).trans
    (by unfold Dat.fetched Dat.blockOf blk0; rw [arr0]; try rfl)
/-- and W's buffer holds W, fetched at the first point and left in place by the body ever since. -/
theorem before0_w (c : Dev nD) (t : Fin cfg0.N) (d) : (dat0 V c).before 1 t d = blk0 V c 1 t :=
  ((dat0 V c).before_in_eq_fetched 1 rfl (fun _ => rfl) (fun _ _ _ => rfl)
    (fun t => by rw [after0_w]; unfold Dat.blockOf blk0; rw [arr0]; try rfl) t d).trans
    (by unfold Dat.fetched Dat.blockOf blk0; rw [arr0]; try rfl)

/-- The body at a point of region 0, over the three windows' current staging buffers. -/
theorem region0_point (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  simp only [before0_x, before0_w]
  rw [show (dat0 V c).Φ t.succ = (dat0 V c).Φ t.castSucc from rfl,
    show (dat0 V c).owesAt () t.succ = (dat0 V c).owesAt () t.castSucc from rfl, after0_x, after0_w, after0_y]
  unfold bodyAt0
  iintro ⟨HΦ, Ho, ⟨%d0, H0⟩, ⟨%d1, H1⟩, ⟨%d2, H2⟩⟩
  iapply (xw_body c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for region 0, at every point. -/
theorem body_obligation0 (c : Dev nD) : BodyObligation (dat0 (F := F) V c) (defs₀ (F := F)) Variants.none () Set.univ := fun t => by
  rw [bigSep_W0, bigSep_W0]
  exact region0_point V c t

end Region0

end Cert.Kernel.Hand

end
-- ==== Proof.K.Region1.lean ====
/-
  Region 1 as the pipeline runs it, from any contents `V` of the TensorCore's buffers at the region's entry.

  The grid is 8 row blocks × 2 K blocks, numbered row block by row block: point `t` is row block t / 2, K block t % 2. It
  stages the adjacency's block (rows 1024·(t/2) …, columns 4096·(t%2) …; window 0), rows 4096·(t%2) … of x·Wᵀ
  (window 1), the row block of x (window 2), B (window 3), the row block of the reciprocal degrees (window 4), and writes
  the row block of the output back at the odd points (window 5). `blk1 V c w t` is the block of window `w`'s array at `t`.

  The kernel keeps an accumulator in a scratch buffer. It is reset at every even point, so what it holds after a point
  has a closed form with no recursion over the grid: after an even point, the first K block's product `acc1`; after an
  odd point, the second K block's product added to the `acc1` of the point before (`accAfter`). At an odd point the
  output buffer is left at `outAfter`: the accumulator scaled row by row by the reciprocal degrees, plus the x block
  times Bᵀ. At an even point the output buffer is not stored into (the window is idle there and not written back).

  The region's invariant `inv1` says where the scratch stands: before the first point the class's invariant (the scratch
  at anything); after point `n`, the scratch at `accAfter n` — beside region 0's five staging buffers, unused here, and
  the generator register. `dat1` is the proof data, `body_obligation1` the pipeline library's obligation for it.
-/
import proofs.«115460_j79422535238375_1_alg».proof.Proof.Gen.Kernel.Launch
import proofs.«115460_j79422535238375_1_alg».proof.Proof.Gen.Kernel.Skeleton
import proofs.«115460_j79422535238375_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«115460_j79422535238375_1_alg».proof.Proof.K.Bodies
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The block of window `w`'s array that point `t` of region 1 stages, read off the entry contents `V`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point before `t` (point 0 for `t = 0`, where it is never consulted). -/
def prevPt (t : Fin cfg1.N) : Fin cfg1.N := ⟨t.val - 1, Nat.lt_of_le_of_lt (Nat.sub_le _ _) t.isLt⟩

/-- The accumulator after a first K block: zero plus that block's product. -/
def acc1 (c : Dev nD) (t : Fin cfg1.N) : Vec F S1024x128 .f32 := k1_pay2 k1_pay1 (blk1 V c 0 t) (blk1 V c 1 t)

/-- The accumulator after point `t`: at an even point the first K block's product; at an odd point the second K
    block's product added to the first's, which the point before left. -/
def accAfter (c : Dev nD) (t : Fin cfg1.N) : Vec F S1024x128 .f32 :=
  if t.val % 2 = 0 then acc1 V c t else k1_pay2 (acc1 V c (prevPt t)) (blk1 V c 0 t) (blk1 V c 1 t)

/-- The output buffer after an odd point: the accumulator scaled by the reciprocal degrees, plus the x block times Bᵀ. -/
def outAfter (c : Dev nD) (t : Fin cfg1.N) : Vec F S1024x128 .f32 :=
  k1_pay3 (blk1 V c 2 t) (blk1 V c 3 t) (accAfter V c t) (blk1 V c 4 t)

theorem accAfter_even (c : Dev nD) (t : Fin cfg1.N) (h : t.val % 2 = 0) : accAfter V c t = acc1 V c t := if_pos h
theorem accAfter_odd (c : Dev nD) (t : Fin cfg1.N) (h : t.val % 2 = 1) :
    accAfter V c t = k1_pay2 (acc1 V c (prevPt t)) (blk1 V c 0 t) (blk1 V c 1 t) := if_neg (by omega)

/-! ## The invariant: where the scratch stands -/

/-- The scratch accumulator as a memref. -/
abbrev accBuf : Memref sig .tc .vmem S1024x128 .f32 := Memref.whole cc1_scratch0

/-- What rides through region 1 beside the scratch: region 0's five staging buffers, each whole at some contents, and
    the generator register at some state. -/
def beside1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ ∃ r, prngReg c r)

/-- The class's invariant of region 1 is `beside1` with the scratch at anything: one way, -/
theorem classInv1_split (c : Dev nD) :
    (Pipeline.ΦA spec1 c : sProp 𝕄) ⊢ iprop(beside1 c ∗ ∃ d, owns (c : Thread nD τ) accBuf fullShare d) := by
  unfold Pipeline.ΦA beside1; rw [scopedRest1_eq]; simp only [accBuf, owns_whole]
  iintro ⟨⟨A, B, C, D, E, S⟩, G⟩
  isplitr [S]
  · isplitr [G]
    · isplitl [A]; · iexact A
      isplitl [B]; · iexact B
      isplitl [C]; · iexact C
      isplitl [D]; · iexact D
      iexact E
    · iexact G
  · iexact S

/-- and the other. -/
theorem classInv1_join (c : Dev nD) :
    iprop(beside1 c ∗ ∃ d, owns (c : Thread nD τ) accBuf fullShare d) ⊢ (Pipeline.ΦA spec1 c : sProp 𝕄) := by
  unfold Pipeline.ΦA beside1; rw [scopedRest1_eq]; simp only [accBuf, owns_whole]
  iintro ⟨⟨⟨A, B, C, D, E⟩, G⟩, S⟩
  isplitr [G]
  · isplitl [A]; · iexact A
    isplitl [B]; · iexact B
    isplitl [C]; · iexact C
    isplitl [D]; · iexact D
    isplitl [E]; · iexact E
    iexact S
  · iexact G

/-- The accumulator's contents can be forgotten. -/
theorem forget_acc (c : Dev nD) (s : Vec F S1024x128 .f32) :
    iprop(beside1 c ∗ owns (c : Thread nD τ) accBuf fullShare s) ⊢ (iprop(beside1 c ∗ ∃ d, owns (c : Thread nD τ) accBuf fullShare d) : sProp 𝕄) := by
  iintro ⟨Hb, Hs⟩
  isplitl [Hb]; · iexact Hb
  iexists _; iexact Hs

/-- The invariant before point `n` (after point `n - 1`). -/
def inv1 (c : Dev nD) (n : Fin (cfg1.N + 1)) : sProp 𝕄 :=
  if h : n.val = 0 then Pipeline.ΦA spec1 c
  else iprop(beside1 c ∗ owns (c : Thread nD τ) accBuf fullShare (accAfter V c ⟨n.val - 1, by have := n.isLt; omega⟩))

theorem inv1_first (c : Dev nD) : inv1 V c 0 = Pipeline.ΦA spec1 c := dif_pos rfl

/-- After point `t` the scratch is at `accAfter t`. -/
theorem inv1_after (c : Dev nD) (t : Fin cfg1.N) :
    inv1 V c t.succ = iprop(beside1 c ∗ owns (c : Thread nD τ) accBuf fullShare (accAfter V c t)) := by
  unfold inv1
  rw [dif_neg (by rw [Fin.val_succ]; omega)]
  congr

/-- Before point `t`, whichever it is, the scratch is at SOME contents. -/
theorem inv1_before_some (c : Dev nD) (t : Fin cfg1.N) :
    inv1 V c t.castSucc ⊢ iprop(beside1 c ∗ ∃ d, owns (c : Thread nD τ) accBuf fullShare d) := by
  unfold inv1
  by_cases h : t.castSucc.val = 0
  · rw [dif_pos h]; exact classInv1_split c
  · rw [dif_neg h]; exact forget_acc c _

/-- Before an odd point the scratch is at the first K block's product of the point before. -/
theorem inv1_before_odd (c : Dev nD) (t : Fin cfg1.N) (h : t.val % 2 = 1) :
    inv1 V c t.castSucc = iprop(beside1 c ∗ owns (c : Thread nD τ) accBuf fullShare (acc1 V c (prevPt t))) := by
  unfold inv1
  rw [dif_neg (by rw [Fin.val_castSucc]; omega)]
  have hp : (⟨t.castSucc.val - 1, by have := t.castSucc.isLt; omega⟩ : Fin cfg1.N) = prevPt t := Fin.ext (by simp [prevPt])
  rw [hp, accAfter_even V c (prevPt t) (by show (t.val - 1) % 2 = 0; omega)]

/-! ## The proof data -/

/-- Region 1's proof data on core `c`: the arrays as found; after the body at point `t` the five input blocks in
    place and the output buffer at `outAfter t` (consulted at the odd points only); the invariant `inv1`; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outAfter V c t
  Φ n := inv1 V c n
  q _ := fullShare
  owed _ := 0

theorem arr1 (c : Dev nD) (w : Fin cfg1.W) : (dat1 V c).A w = V c (Pipeline.arrRef spec1 w) := by dsimp only [dat1]
theorem after1_a (c : Dev nD) (t : Fin cfg1.N) : (dat1 V c).after 0 t = blk1 V c 0 t := by dsimp only [dat1]
theorem after1_y (c : Dev nD) (t : Fin cfg1.N) : (dat1 V c).after 1 t = blk1 V c 1 t := by dsimp only [dat1]
theorem after1_x (c : Dev nD) (t : Fin cfg1.N) : (dat1 V c).after 2 t = blk1 V c 2 t := by dsimp only [dat1]
theorem after1_b (c : Dev nD) (t : Fin cfg1.N) : (dat1 V c).after 3 t = blk1 V c 3 t := by dsimp only [dat1]
theorem after1_q (c : Dev nD) (t : Fin cfg1.N) : (dat1 V c).after 4 t = blk1 V c 4 t := by dsimp only [dat1]
theorem after1_o (c : Dev nD) (t : Fin cfg1.N) : (dat1 V c).after 5 t = outAfter V c t := by dsimp only [dat1]

/-- When the body runs at point `t` each input window's buffer holds its block there, fetched at `t` or left in place
    by the body since an earlier point whose block it also was. -/
theorem before1_a (c : Dev nD) (t : Fin cfg1.N) (d) : (dat1 V c).before 0 t d = blk1 V c 0 t :=
  ((dat1 V c).before_in_eq_fetched 0 rfl (fun _ => rfl) (fun _ _ _ => rfl)
    (fun t => by rw [after1_a]; unfold Dat.blockOf blk1; rw [arr1]; try rfl) t d).trans
    (by unfold Dat.fetched Dat.blockOf blk1; rw [arr1]; try rfl)
theorem before1_y (c : Dev nD) (t : Fin cfg1.N) (d) : (dat1 V c).before 1 t d = blk1 V c 1 t :=
  ((dat1 V c).before_in_eq_fetched 1 rfl (fun _ => rfl) (fun _ _ _ => rfl)
    (fun t => by rw [after1_y]; unfold Dat.blockOf blk1; rw [arr1]; try rfl) t d).trans
    (by unfold Dat.fetched Dat.blockOf blk1; rw [arr1]; try rfl)
theorem before1_x (c : Dev nD) (t : Fin cfg1.N) (d) : (dat1 V c).before 2 t d = blk1 V c 2 t :=
  ((dat1 V c).before_in_eq_fetched 2 rfl (fun _ => rfl) (fun _ _ _ => rfl)
    (fun t => by rw [after1_x]; unfold Dat.blockOf blk1; rw [arr1]; try rfl) t d).trans
    (by unfold Dat.fetched Dat.blockOf blk1; rw [arr1]; try rfl)
theorem before1_b (c : Dev nD) (t : Fin cfg1.N) (d) : (dat1 V c).before 3 t d = blk1 V c 3 t :=
  ((dat1 V c).before_in_eq_fetched 3 rfl (fun _ => rfl) (fun _ _ _ => rfl)
    (fun t => by rw [after1_b]; unfold Dat.blockOf blk1; rw [arr1]; try rfl) t d).trans
    (by unfold Dat.fetched Dat.blockOf blk1; rw [arr1]; try rfl)
theorem before1_q (c : Dev nD) (t : Fin cfg1.N) (d) : (dat1 V c).before 4 t d = blk1 V c 4 t :=
  ((dat1 V c).before_in_eq_fetched 4 rfl (fun _ => rfl) (fun _ _ _ => rfl)
    (fun t => by rw [after1_q]; unfold Dat.blockOf blk1; rw [arr1]; try rfl) t d).trans
    (by unfold Dat.fetched Dat.blockOf blk1; rw [arr1]; try rfl)

/-! ## Where the output window is idle -/

/-- At an even point the body stores nothing into the output buffer and the pipeline does not write it back; -/
theorem out_idle_even : ∀ t : Fin cfg1.N, t.val % 2 = 0 → cfg1.idle 5 (grid1.coords t) = true := by decide +kernel
theorem out_kept_even : ∀ t : Fin cfg1.N, t.val % 2 = 0 → (cfg1.win 5).flush t = false := by decide +kernel
/-- at an odd point it stores into it. -/
theorem out_live_odd : ∀ t : Fin cfg1.N, t.val % 2 = 1 → cfg1.idle 5 (grid1.coords t) = false := by decide +kernel

/-! ## The body obligation -/

set_option maxHeartbeats 2000000 in
/-- The body at a point of region 1, over the six windows' current staging buffers: at an even point the first-K
    triple, the scratch taken at anything and handed back at `acc1`; at an odd point the last-K triple, the scratch taken
    at the point before's `acc1` and handed back at `accAfter`, the output buffer left at `outAfter`. -/
theorem region1_point (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d)))
      ⊢ wp frame (wpE (defs₀ (F := F)) Variants.none c none) Set.univ (bodyAt1 t) (fun _ =>
          iprop((dat1 V c).Φ t.succ ∗ (dat1 V c).owesAt () t.succ
            ∗ (dat1 V c).leavesExact 0 t ∗ (dat1 V c).leavesExact 1 t ∗ (dat1 V c).leavesExact 2 t
            ∗ (dat1 V c).leavesExact 3 t ∗ (dat1 V c).leavesExact 4 t ∗ (dat1 V c).leavesExact 5 t)) := by
  simp only [before1_a, before1_y, before1_x, before1_b, before1_q]
  rw [show (dat1 V c).owesAt () t.succ = (dat1 V c).owesAt () t.castSucc from rfl,
    show (dat1 V c).Φ t.succ = inv1 V c t.succ from rfl, show (dat1 V c).Φ t.castSucc = inv1 V c t.castSucc from rfl,
    inv1_after,
    show (dat1 V c).leavesExact 0 t = owns (c : Thread nD τ) (st1_0 t) fullShare (blk1 V c 0 t) from by
      unfold Dat.leavesExact; rw [show cfg1.idle 0 (cfg1.grid.coords t) = false from rfl, after1_a],
    show (dat1 V c).leavesExact 1 t = owns (c : Thread nD τ) (st1_1 t) fullShare (blk1 V c 1 t) from by
      unfold Dat.leavesExact; rw [show cfg1.idle 1 (cfg1.grid.coords t) = false from rfl, after1_y],
    show (dat1 V c).leavesExact 2 t = owns (c : Thread nD τ) (st1_2 t) fullShare (blk1 V c 2 t) from by
      unfold Dat.leavesExact; rw [show cfg1.idle 2 (cfg1.grid.coords t) = false from rfl, after1_x],
    show (dat1 V c).leavesExact 3 t = owns (c : Thread nD τ) (st1_3 t) fullShare (blk1 V c 3 t) from by
      unfold Dat.leavesExact; rw [show cfg1.idle 3 (cfg1.grid.coords t) = false from rfl, after1_b],
    show (dat1 V c).leavesExact 4 t = owns (c : Thread nD τ) (st1_4 t) fullShare (blk1 V c 4 t) from by
      unfold Dat.leavesExact; rw [show cfg1.idle 4 (cfg1.grid.coords t) = false from rfl, after1_q]]
  unfold bodyAt1
  by_cases hpar : t.val % 2 = 0
  · -- a first K block
    have hF : atFirstK (grid1.coords t) := (atFirstK_iff t).mpr hpar
    have hL : ¬ atLastK (grid1.coords t) := fun h => by have := (atLastK_iff t).mp h; omega
    rw [Dat.leavesExact_idle (dat1 V c) 5 t (out_idle_even t hpar) (out_kept_even t hpar), accAfter_even V c t hpar]
    iintro ⟨HΦ, Ho, ⟨%d0, H0⟩, ⟨%d1, H1⟩, ⟨%d2, H2⟩, ⟨%d3, H3⟩, ⟨%d4, H4⟩, ⟨%d5, H5⟩⟩
    ihave HΦ' := (inv1_before_some V c t) $$ HΦ
    icases HΦ' with ⟨Hb, HS⟩
    iapply (main_body_first c Set.univ (grid1.coords t) hF hL _ _ _ _ _ _ _ _ _ _ _ _ _ _ (blk1 V c 0 t) (blk1 V c 1 t) _)
    isplitl [H0]; · iexact H0
    isplitl [H1]; · iexact H1
    isplitl [HS]; · iexact HS
    iintro ⟨H0, H1, HS⟩
    isplitl [Hb HS]
    · isplitl [Hb]; · iexact Hb
      iexact HS
    isplitl [Ho]; · iexact Ho
    isplitl [H0]; · iexact H0
    isplitl [H1]; · iexact H1
    isplitl [H2]; · iexact H2
    isplitl [H3]; · iexact H3
    isplitl [H4]; · iexact H4
    iexists _; iexact H5
  · -- a last K block
    have hodd : t.val % 2 = 1 := by omega
    have hF : ¬ atFirstK (grid1.coords t) := fun h => hpar ((atFirstK_iff t).mp h)
    have hL : atLastK (grid1.coords t) := (atLastK_iff t).mpr hodd
    rw [show (dat1 V c).leavesExact 5 t = owns (c : Thread nD τ) (st1_5 t) fullShare (outAfter V c t) from by
      unfold Dat.leavesExact; rw [out_live_odd t hodd, after1_o]]
    rw [inv1_before_odd V c t hodd]
    unfold outAfter
    rw [accAfter_odd V c t hodd]
    iintro ⟨⟨Hb, HS⟩, Ho, ⟨%d0, H0⟩, ⟨%d1, H1⟩, ⟨%d2, H2⟩, ⟨%d3, H3⟩, ⟨%d4, H4⟩, ⟨%d5, H5⟩⟩
    iapply (main_body_last c Set.univ (grid1.coords t) hF hL _ _ _ _ _ _ _ _ _ _ _ _ _ _ (blk1 V c 0 t) (blk1 V c 1 t)
      (blk1 V c 2 t) (blk1 V c 3 t) (blk1 V c 4 t) (acc1 V c (prevPt t)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [Hb HS]
    · isplitl [Hb]; · iexact Hb
      iexact HS
    isplitl [Ho]; · iexact Ho
    isplitl [H0]; · iexact H0
    isplitl [H1]; · iexact H1
    isplitl [H2]; · iexact H2
    isplitl [H3]; · iexact H3
    isplitl [H4]; · iexact H4
    iexact H5

/-- The pipeline library's body obligation for region 1, at every point. -/
theorem body_obligation1 (c : Dev nD) : BodyObligation (dat1 (F := F) V c) (defs₀ (F := F)) Variants.none () Set.univ := fun t => by
  rw [bigSep_W1, bigSep_W1]
  exact region1_point V c t

/-- The class's invariant is the region's before its first point, -/
theorem inv1_in (c : Dev nD) : Pipeline.ΦA spec1 c ⊢ (dat1 V c).Φ 0 := by
  rw [show (dat1 V c).Φ 0 = inv1 V c 0 from rfl, inv1_first]

/-- and after the last point the region's invariant gives the class's back, the accumulator's contents forgotten. -/
theorem inv1_out (c : Dev nD) : (dat1 V c).Φ (Fin.last cfg1.N) ⊢ Pipeline.ΦA spec1 c := by
  rw [show (dat1 V c).Φ (Fin.last cfg1.N) = inv1 V c (Fin.last cfg1.N) from rfl]
  unfold inv1
  rw [dif_neg (by rw [Fin.val_last]; have : cfg1.N = 16 := N_1; omega)]
  exact (forget_acc c _).trans (classInv1_join c)

end Region1

end Cert.Kernel.Hand

end
-- ==== Proof.K.Arrays.lean ====
/-
  What the TensorCore's buffers hold at the two regions' entries and what the regions leave, from the launch memory `m`.

  Region 0 finds `entry0 m`: the launch memory after the three stretches of host operations (the adjacency, the
  reciprocal degrees and their operands computed, the arguments untouched). It leaves its output array — x·Wᵀ — at
  `xwArr m`: the pipeline library's fold of the eight write-backs of `dat0`'s output blocks. Region 1 finds `entry1 m`:
  the same contents with x·Wᵀ's buffer at `xwArr m`; it leaves its output array at `outArr m`, the fold of the eight
  write-backs (at the odd points) of `dat1`'s output blocks. `outs m` names these two arrays as the contents the
  conditional frame of the program is stated over.
-/
import proofs.«115460_j79422535238375_1_alg».proof.Proof.Gen.Kernel.Launch
import proofs.«115460_j79422535238375_1_alg».proof.Proof.Gen.Kernel.Skeleton
import proofs.«115460_j79422535238375_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«115460_j79422535238375_1_alg».proof.Proof.K.Region0
import proofs.«115460_j79422535238375_1_alg».proof.Proof.K.Region1
import proofs.«115460_j79422535238375_1_alg».proof.Proof.Gen.Kernel.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What region 0 finds in the TensorCore's buffers. -/
def entry0 (c : Dev nD) (b : Ref sig .tc) : Buf (Elt F) ((c : Thread nD τ).loc b) := Gen.V3 m c b

/-- x·Wᵀ as region 0 leaves it: its output array after the eight write-backs. -/
def xwArr (c : Dev nD) : Buf (Elt F) ((c : Thread nD τ).loc main_v30) := (dat0 (entry0 m) c).arrAt 2 cfg0.N

/-- What region 1 finds: region 0's entry contents with x·Wᵀ's buffer at what region 0 left. -/
def entry1 (c : Dev nD) (b : Ref sig .tc) : Buf (Elt F) ((c : Thread nD τ).loc b) :=
  (Function.update (Gen.V3 m c) main_v30 (xwArr m c)) b

/-- The layer's output as region 1 leaves it: its output array after the write-backs at the odd points. -/
def outArr (c : Dev nD) : Buf (Elt F) ((c : Thread nD τ).loc main_v31) := (dat1 (entry1 m) c).arrAt 5 cfg1.N

/-- The two arrays the regions leave, as the contents the program's conditional frame is stated over (elsewhere: the
    contents region 0 found, which nothing reads). -/
def outs : Gen.Outs (F := F) := fun _ r c =>
  if h : r = main_v30 then h ▸ xwArr m c
  else if h' : r = main_v31 then h' ▸ outArr m c
  else Gen.V3 m c r

theorem outs_xw (c : Dev nD) : outs m 4 main_v30 c = xwArr m c := by unfold outs; rw [dif_pos rfl]
theorem outs_out (c : Dev nD) : outs m 5 main_v31 c = outArr m c := by
  unfold outs; rw [dif_neg (by decide), dif_pos rfl]

/-- Region 1's entry contents are the conditional frame's contents after region 0. -/
theorem entry1_eq (c : Dev nD) (b : Ref sig .tc) : Gen.V4 m (outs m) c b = entry1 m c b := by
  unfold entry1; rw [show Gen.V4 m (outs m) c = Function.update (Gen.V3 m c) main_v30 (outs m 4 main_v30 c) from rfl, outs_xw]

/-- At x·Wᵀ's buffer region 1 finds what region 0 left; -/
theorem entry1_xw (c : Dev nD) : entry1 m c main_v30 = xwArr m c := by
  unfold entry1; exact Function.update_self ..

/-- everywhere else what region 0 found. -/
theorem entry1_other (c : Dev nD) (b : Ref sig .tc) (h : b ≠ main_v30) : entry1 m c b = entry0 m c b := by
  unfold entry1 entry0
  exact Function.update_of_ne (StableHlo.devRef_ne_of_ne h) _ _

end Cert.Kernel.Hand

end
-- ==== Proof.K.Frame.lean ====
/-
  The frame of the program: from any launch memory, every run of @main terminates with the four argument arrays
  (x, the edge list, W and B) holding what they held at launch.

  Between two items of @main a TensorCore holds every unscoped buffer whole at a known valuation and, beside them, its
  generator register at some state and the fact that it owes nothing ("rest"). The two kernel regions are described
  over that state.

  Region 0 is entered at the valuation the three host stretches leave. Its arrays are x and W (read) and the buffer
  of x·Wᵀ (written): they are taken out of the unscoped buffers at the entry, every other buffer rides along
  untouched, and at the exit they are put back, x and W as they were and x·Wᵀ's buffer at "xwArr".

  Region 1 is entered at that valuation with x·Wᵀ in place. Its arrays are the adjacency, x·Wᵀ, x, B and the
  reciprocal degrees (read) and the output buffer (written): taken out at the entry, put back at the exit with the
  five inputs as they were and the output buffer at "outArr"; every other buffer rides along.

  In both regions the generator register passes through the kernel's invariant and comes back at some state; neither
  kernel has a semaphore of its own or a prefetched table, and neither takes on anything owed.
-/
import proofs.«115460_j79422535238375_1_alg».proof.Proof.Gen.Kernel.Launch
import proofs.«115460_j79422535238375_1_alg».proof.Proof.Gen.Kernel.Skeleton
import proofs.«115460_j79422535238375_1_alg».proof.Proof.Gen.Kernel.Points
import Idealize.ShloMosaic.Lib.Pipeline.FrameBody
import Idealize.ShloMosaic.Lib.Pipeline.Value
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic
import proofs.«115460_j79422535238375_1_alg».proof.Proof.K.Region0
import proofs.«115460_j79422535238375_1_alg».proof.Proof.K.Region1
import proofs.«115460_j79422535238375_1_alg».proof.Proof.Gen.Kernel.Regions
import proofs.«115460_j79422535238375_1_alg».proof.Proof.K.Arrays
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What rides beside the buffers -/

/-- No core waits for another: no level is assigned. -/
abbrev noPairs : GSem nD τ sig → Finset Unit := fun _ => ∅
abbrev noLevel : GSem nD τ sig → Unit → ℕ := fun _ _ => 0

/-- What a core holds beside its unscoped buffers between two items of @main: its generator register at some state,
    and that it owes nothing. -/
abbrev rest (c : Dev nD) : sProp 𝕄 :=
  iprop((∃ r, prngReg c r) ∗ ∃ W, owes (c : Thread nD τ) (0 : CellTallies nD τ sig Unit) W)

/-- The same before region 0, between the regions and after region 1. -/
abbrev rests : Fin 3 → Dev nD → sProp 𝕄 := fun _ c => rest c

/-- The two regions' proof data, each at what its region finds in the buffers. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

/-! ## Owing nothing, inside and outside a region -/

/-- A core that owes nothing owes, before any point of a region whose data name no tallies and bound no recorded
    pairs, what the data say. -/
theorem owesNothing_in {cfg : Cfg sig Λ₀} {c : Dev nD} (dat : Dat τ (Elt F) Unit ℕ (UR sig nD τ) ℕ cfg c) (t : Fin (cfg.N + 1))
    (hO : dat.owed t = 0) (hR : dat.recorded t = Set.univ) :
    (iprop(∃ W, owes (c : Thread nD τ) (0 : CellTallies nD τ sig Unit) W) : sProp 𝕄) ⊢ dat.owesAt () t := by
  unfold Pipeline.Dat.owesAt Pipeline.owesWithin
  rw [hO]
  iintro ⟨%W, Ho⟩
  iexists W
  isplitr
  · ipureintro
    intro x _
    left
    rw [hR]
    trivial
  · iexact Ho

/-- and the other way: the bound on the recorded pairs is dropped. -/
theorem owesNothing_out {cfg : Cfg sig Λ₀} {c : Dev nD} (dat : Dat τ (Elt F) Unit ℕ (UR sig nD τ) ℕ cfg c) (t : Fin (cfg.N + 1))
    (hO : dat.owed t = 0) :
    dat.owesAt () t ⊢ (iprop(∃ W, owes (c : Thread nD τ) (0 : CellTallies nD τ sig Unit) W) : sProp 𝕄) := by
  unfold Pipeline.Dat.owesAt Pipeline.owesWithin
  rw [hO]
  iintro ⟨%W, -, Ho⟩
  iexists W
  iexact Ho

/-- Neither kernel prefetches a table: there is none to hold. -/
theorem noTables (p : Fin 2) (c : Dev nD) :
    (BI.emp : sProp 𝕄) ⊢ Pipeline.prefHeld (pcfgs (F := F) p).pre c (fun _ => fullShare) (adm p).1 := by
  unfold Pipeline.prefHeld
  rw [show (Finset.univ : Finset (Fin 0)) = ∅ from rfl, BI.bigSep_empty]

/-! ## Region 0: x and W in, x·Wᵀ out -/

/-- The buffer of x·Wᵀ is region 0's third array; after the region it holds what the region left, -/
theorem exit0_xw (c : Dev nD) : Gen.V4 m (outs m) c main_v30 = (dat0 (entry0 m) c).arrAt 2 cfg0.N := by
  rw [show Gen.V4 m (outs m) c = Function.update (Gen.V3 m c) main_v30 (outs m 4 main_v30 c) from rfl,
    Function.update_self, outs_xw]
  rfl

/-- and every other buffer what region 0 found. -/
theorem exit0_other (c : Dev nD) (b : Ref sig .tc) (h : b ≠ main_v30) : Gen.V4 m (outs m) c b = Gen.V3 m c b :=
  Gen.V4_of m (outs m) c b (by simpa using h)

-- the library's lemmas on a region's arrays are stated over the pinned configuration of the pipeline: matching them
-- against this region's takes unfolding plain definitions inside types
set_option backward.isDefEq.respectTransparency.types false in
/-- Region 0 between "every unscoped buffer as the host stretches left it, the rest" and "the same with x·Wᵀ's buffer
    at what the region left, the rest". -/
def region0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noPairs noLevel 0 fun _ _ => rfl
  pre c := iprop(StableHlo.held (c : Thread nD τ) (Pipeline.ucRefs τ sig) (Gen.V3 m c) ∗ rests 0 c)
  post c := iprop(StableHlo.held (c : Thread nD τ) (Pipeline.ucRefs τ sig) (Gen.V4 m (outs m) c) ∗ rests 1 c)
  X c := iprop(∃ r, prngReg c r)
  Y c := iprop(∃ r, prngReg c r)
  Z c := Pipeline.unscopedRest (Ix := Unit) (Name := ℕ) (U := UR sig nD τ) (Lvl := ℕ) spec0 c (fun b => Gen.V3 m c b)
  hentry c := by
    -- x, W and x·Wᵀ's buffer leave the unscoped buffers; the others stay behind as "Z"
    have takeOut := Pipeline.arrays_of_unscopedBufs (p := 0) (pcfgs (F := F)) adm (pdats m) launch0.win launch0.arr_whole c
      ((pdats m 0 c).share_full fun _ => rfl) (fun b => Gen.V3 m c b) (fun w => arr0 (entry0 m) c w)
    rw [Pipeline.unscopedBufs_held] at takeOut
    rw [Pipeline.ownSems0_none]
    iintro ⟨⟨Hbufs, Hgen, Howe⟩, -, -⟩
    imodintro
    ihave Hs := takeOut $$ Hbufs
    icases Hs with ⟨Harr, Hoth⟩
    isplitl [Harr]; · iexact Harr
    isplitr; · iapply (noTables (F := F) 0 c); iempintro
    isplitl [Howe]; · iapply (owesNothing_in (pdats m 0 c) 0 rfl rfl); iexact Howe
    isplitl [Hgen]; · iexact Hgen
    iexact Hoth
  hin c := by
    -- the invariant is the class's: the scoped buffers no window stages, and the generator register
    rw [show (pdats m 0 c).Φ 0 = Pipeline.ΦA spec0 c from rfl]
    unfold Pipeline.ΦA
    iintro ⟨Hgen, -, Hscoped⟩
    isplitl [Hscoped]; · iexact Hscoped
    iexact Hgen
  hout c := by
    rw [show (pdats m 0 c).Φ (Fin.last _) = Pipeline.ΦA spec0 c from rfl, Pipeline.ownSems0_none]
    unfold Pipeline.ΦA
    iintro ⟨Hscoped, Hgen⟩
    isplitl [Hgen]; · iexact Hgen
    isplitr; · iempintro
    iexact Hscoped
  hexit c := by
    -- the three arrays go back: x and W as found, x·Wᵀ's buffer at what the write-backs left
    have putBack := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => Gen.V3 m c b) (fun b => Gen.V4 m (outs m) c b) ((pdats m 0 c).arrAt · cfg0.N)
      (fun w => by
        fin_cases w
        · exact (((pdats m 0 c).arrAt_in 0 rfl _).trans (arr0 (entry0 m) c 0)).trans (exit0_other m c main_arg0 (by decide)).symm
        · exact (((pdats m 0 c).arrAt_in 1 rfl _).trans (arr0 (entry0 m) c 1)).trans (exit0_other m c main_arg2 (by decide)).symm
        · exact (exit0_xw m c).symm)
      (fun b hb => exit0_other m c b fun h => hb (h ▸ Finset.mem_image.mpr ⟨2, Finset.mem_univ _, rfl⟩))
    rw [Pipeline.unscopedBufs_held] at putBack
    iintro ⟨Harr, Howe, Hgen, Hoth⟩
    imodintro
    isplitl [Harr Hoth]
    · iapply putBack
      isplitl [Harr]; · iexact Harr
      iexact Hoth
    isplitl [Hgen]; · iexact Hgen
    iapply (owesNothing_out (pdats m 0 c) (Fin.last _) rfl)
    iexact Howe

/-! ## Region 1: the adjacency, x·Wᵀ, x, B and the reciprocal degrees in, the layer's output out -/

/-- What region 1's data call its arrays are the buffers after region 0, -/
theorem entry1_arr (c : Dev nD) (w : Fin cfg1.W) : (dat1 (entry1 m) c).A w = Gen.V4 m (outs m) c (Pipeline.arrRef spec1 w) :=
  (arr1 (entry1 m) c w).trans (entry1_eq m c _).symm

/-- the output's buffer is region 1's sixth array; after the region it holds what the region left, -/
theorem exit1_out (c : Dev nD) : Gen.V5 m (outs m) c main_v31 = (dat1 (entry1 m) c).arrAt 5 cfg1.N := by
  rw [show Gen.V5 m (outs m) c = Function.update (Gen.V4 m (outs m) c) main_v31 (outs m 5 main_v31 c) from rfl,
    Function.update_self, outs_out]
  rfl

/-- and every other buffer what region 1 found. -/
theorem exit1_other (c : Dev nD) (b : Ref sig .tc) (h : b ≠ main_v31) : Gen.V5 m (outs m) c b = Gen.V4 m (outs m) c b :=
  Gen.V5_of m (outs m) c b (by simpa using h)

/-- An array region 1 only reads ends the region as it entered it. -/
theorem exit1_read (c : Dev nD) (w : Fin cfg1.W) (hr : (cfg1.win w).isOut = false) (hne : Pipeline.arrRef spec1 w ≠ main_v31) :
    (dat1 (entry1 m) c).arrAt w cfg1.N = Gen.V5 m (outs m) c (Pipeline.arrRef spec1 w) :=
  (((dat1 (entry1 m) c).arrAt_in w hr _).trans (entry1_arr m c w)).trans (exit1_other m c _ hne).symm

-- as for region 0: the library's lemmas are stated over the pinned configuration
set_option backward.isDefEq.respectTransparency.types false in
/-- Region 1 between "every unscoped buffer as region 0 left it, the rest" and "the same with the output's buffer at
    what the region left, the rest". The scratch accumulator is the kernel's own business: it enters and leaves inside
    the class's invariant. -/
def region1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noPairs noLevel 1 fun _ _ => rfl
  pre c := iprop(StableHlo.held (c : Thread nD τ) (Pipeline.ucRefs τ sig) (Gen.V4 m (outs m) c) ∗ rests 1 c)
  post c := iprop(StableHlo.held (c : Thread nD τ) (Pipeline.ucRefs τ sig) (Gen.V5 m (outs m) c) ∗ rests 2 c)
  X c := iprop(∃ r, prngReg c r)
  Y c := iprop(∃ r, prngReg c r)
  Z c := Pipeline.unscopedRest (Ix := Unit) (Name := ℕ) (U := UR sig nD τ) (Lvl := ℕ) spec1 c (fun b => Gen.V4 m (outs m) c b)
  hentry c := by
    -- the six arrays leave the unscoped buffers; the others stay behind as "Z"
    have takeOut := Pipeline.arrays_of_unscopedBufs (p := 1) (pcfgs (F := F)) adm (pdats m) launch1.win launch1.arr_whole c
      ((pdats m 1 c).share_full fun _ => rfl) (fun b => Gen.V4 m (outs m) c b) (fun w => entry1_arr m c w)
    rw [Pipeline.unscopedBufs_held] at takeOut
    rw [Pipeline.ownSems0_none]
    iintro ⟨⟨Hbufs, Hgen, Howe⟩, -, -⟩
    imodintro
    ihave Hs := takeOut $$ Hbufs
    icases Hs with ⟨Harr, Hoth⟩
    isplitl [Harr]; · iexact Harr
    isplitr; · iapply (noTables (F := F) 1 c); iempintro
    isplitl [Howe]; · iapply (owesNothing_in (pdats m 1 c) 0 rfl rfl); iexact Howe
    isplitl [Hgen]; · iexact Hgen
    iexact Hoth
  hin c := by
    -- before the first point the region's invariant is the class's
    refine BIBase.Entails.trans ?_ (inv1_in (entry1 m) c)
    unfold Pipeline.ΦA
    iintro ⟨Hgen, -, Hscoped⟩
    isplitl [Hscoped]; · iexact Hscoped
    iexact Hgen
  hout c := by
    -- after the last point it gives the class's back, the accumulator's contents forgotten
    refine (inv1_out (entry1 m) c).trans ?_
    rw [Pipeline.ownSems0_none]
    unfold Pipeline.ΦA
    iintro ⟨Hscoped, Hgen⟩
    isplitl [Hgen]; · iexact Hgen
    isplitr; · iempintro
    iexact Hscoped
  hexit c := by
    -- the six arrays go back: the five inputs as found, the output's buffer at what the write-backs left
    have putBack := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => Gen.V4 m (outs m) c b) (fun b => Gen.V5 m (outs m) c b) ((pdats m 1 c).arrAt · cfg1.N)
      (fun w => by
        fin_cases w
        · exact exit1_read m c 0 rfl (by decide)
        · exact exit1_read m c 1 rfl (by decide)
        · exact exit1_read m c 2 rfl (by decide)
        · exact exit1_read m c 3 rfl (by decide)
        · exact exit1_read m c 4 rfl (by decide)
        · exact (exit1_out m c).symm)
      (fun b hb => exit1_other m c b fun h => hb (h ▸ Finset.mem_image.mpr ⟨5, Finset.mem_univ _, rfl⟩))
    rw [Pipeline.unscopedBufs_held] at putBack
    iintro ⟨Harr, Howe, Hgen, Hoth⟩
    imodintro
    isplitl [Harr Hoth]
    · iapply putBack
      isplitl [Harr]; · iexact Harr
      iexact Hoth
    isplitl [Hgen]; · iexact Hgen
    iapply (owesNothing_out (pdats m 1 c) (Fin.last _) rfl)
    iexact Howe

/-! ## The launch -/

/-- The launch's ghost element is the pipeline library's for the two kernels' staging cells; no core gets anything more. -/
theorem launchGhost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  -- owning the launch element in the user algebra is owning its image in the whole one
  have asWhole : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  iintro Hu
  imodintro
  isplitl [Hu]
  · iapply asWhole; iexact Hu
  · rw [BI.bigSep_emp_const]; iempintro

/-- Of what the launch deals a core beside its buffers, the rest keeps the generator register (its launch state
    forgotten) and that the core owes nothing; the idle semaphores and the empty credit are let go. -/
theorem restAtLaunch :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLevel)
      ⊢ (|={Set.univ}=> bigSep Finset.univ (rests (F := F) 0) : sProp 𝕄) := by
  refine Pipeline.initEach noPairs noLevel fun c => ?_
  iintro ⟨⟨-, Howe, -, Hgen, -⟩, -⟩
  imodintro
  isplitl [Hgen]
  · iexists _; iexact Hgen
  · iexists ∅; iexact Howe

-- the conditional frame's implicit arguments are found by unifying its conclusion with this statement, which takes
-- unfolding plain definitions inside types
set_option backward.isDefEq.respectTransparency.types false in
/-- THE FRAME. From any launch memory with every counter at zero, every weakly fair run of @main on the TensorCores
    terminates and leaves x, the edge list, W and B as launched: the program's conditional frame, given the two regions
    above, the rest that rides between them and the two arrays they leave. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond (m := m) (EP := emb₁) (ι := ()) (𝒱₀ := Variants.none) (L := noPairs) (lv := noLevel) (hL := fun _ _ => rfl)
    (ρ := ρ) (outs := outs m) (pdats := pdats m) (O₀ := 0) (G := fun _ => BI.emp)
    (u₀ := initOf (Pipeline.cells cfgs cellOf_inj) (Pipeline.launchToks cfgs cellOf_inj)) (hu₀ := launchGhost)
    (E := rests) (hE0 := restAtLaunch ρ)
    (hE2 := fun c => by iintro ⟨-, Howe⟩; iexact Howe)
    (R0 := region0 m) (hpre0 := fun _ => .rfl) (hpost0 := fun _ => .rfl)
    (R1 := region1 m) (hpre1 := fun _ => .rfl) (hpost1 := fun _ => .rfl)

end Cert.Kernel.Hand

end
-- ==== Proof.KI.Bodies.lean ====
/-
  The two kernels' bodies as triples over whole staging buffers, at any float values.

  Region 0's body loads a 1024-row block `xb` of x and the whole of W, and stores `k0_pay1 xb wb` (the block times Wᵀ)
  into the output block: `xw_body`.

  Region 1's body runs on the grid (row block, K block), two K blocks per row block. At the FIRST K block
  (`atFirstK`) it zeroes the scratch accumulator and adds this K block's product to it, leaving
  `k1_pay2 k1_pay1 a y`, and touches nothing else: `main_body_first`. At the LAST K block (`atLastK`) it adds this
  block's product to what the scratch held, `k1_pay2 s a y`, and stores `k1_pay3 x b (k1_pay2 s a y) q` — the
  accumulated product scaled row by row by `q`, plus the x block times Bᵀ — into the output block: `main_body_last`.
  Every store is of a whole buffer, so each buffer afterwards reads as its last payload (`read_store_last`).

  The two conditions in closed form over the 16 grid points: the first K block is at the even points, the last at the
  odd ones.
-/
import proofs.«115460_j79422535238375_1_alg».proof.Proof.Gen.KernelIdeal.Launch
import proofs.«115460_j79422535238375_1_alg».proof.Proof.Gen.KernelIdeal.Skeleton
import proofs.«115460_j79422535238375_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«115460_j79422535238375_1_alg».proof.Proof.LibWholeStore
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Lib.WholeStore

variable {F : FTy → Type} [FloatOps F]

local notation "𝕄" => MT nD τ sig Unit (Elt F) ℕ (UR sig nD τ) ℕ

/-! ## Region 0: a block of x times Wᵀ -/

set_option maxHeartbeats 1000000 in
/-- The body of region 0 on whole staging buffers: the x block at `xb`, W at `wb`, the output block at anything; it
    returns them with the output block at `k0_pay1 xb wb`. -/
theorem xw_body (c : Dev nD) (E : Set ℕ) (i : grid0.Coords)
    (ax : Memref sig .tc .vmem S1024x128 .f32) (hax : ax.IsWhole)
    (aw : Memref sig .tc .vmem S128x128 .f32) (haw : aw.IsWhole)
    (ay : Memref sig .tc .vmem S1024x128 .bf16) (hay : ay.IsWhole)
    (xb : Vec F S1024x128 .f32) (wb : Vec F S128x128 .f32) (K : PUnit → sProp 𝕄) :
    iprop(owns (c : Thread nD τ) ax fullShare xb ∗ owns (c : Thread nD τ) aw fullShare wb ∗ (∃ d, owns (c : Thread nD τ) ay fullShare d)
        ∗ (iprop(owns (c : Thread nD τ) ax fullShare xb ∗ owns (c : Thread nD τ) aw fullShare wb
            ∗ owns (c : Thread nD τ) ay fullShare (k0_pay1 xb wb)) -∗ K ⟨⟩))
      ⊢ wp frame (wpE (defs₀ (F := F)) Variants.none c none) E (cc0__xw_kernel_body i ax hax aw haw ay hay) K := by
  simp only [cc0__xw_kernel_body_eq_skeleton]; unfold cc0__xw_kernel_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_store_last _ _ zero2 _ _ _).trans ?_
  simp only [View.readAt_eq_ld, View.readCov_unit_zero (S := S1024x128) _ zero2, View.ld_unit_zero (S := S1024x128) zero2,
    View.ld_unit_zero (S := S1024x4096) zero2, View.ld_unit_zero (S := S4096x128) zero2, View.ld_unit_zero (S := S128x128) zero2,
    View.ld_unit_zero (S := S1024x1) zero2]

/-! ## Region 1: which K block a grid point is at -/

/-- The body's first branch (zero the accumulator) is taken where the K coordinate is 0. -/
abbrev atFirstK (i : grid1.Coords) : Prop :=
  (Scalar.cmpi .ne (Scalar.extui (Scalar.cmpi .eq (BitVec.ofNat 32 (i 1).val) 0#32)) 0#32) = 1#1
/-- Its last branch (scale, add the x·Bᵀ term, store the output) is taken where the K coordinate is 1. -/
abbrev atLastK (i : grid1.Coords) : Prop := k1_cond2 i = 1#1

/-- Points are numbered row block by row block, two K blocks each: the first K block is at the even points, -/
theorem atFirstK_iff : ∀ t : Fin cfg1.N, atFirstK (grid1.coords t) ↔ t.val % 2 = 0 :=
  (by decide +kernel : ∀ t : Fin grid1.N, atFirstK (grid1.coords t) ↔ t.val % 2 = 0)
/-- the last at the odd ones. -/
theorem atLastK_iff : ∀ t : Fin cfg1.N, atLastK (grid1.coords t) ↔ t.val % 2 = 1 :=
  (by decide +kernel : ∀ t : Fin grid1.N, atLastK (grid1.coords t) ↔ t.val % 2 = 1)

/-! ## Region 1: the body at a first K block -/

set_option maxHeartbeats 1000000 in
/-- At a first K block the body reads the adjacency block `a` and the block `y` of x·Wᵀ and leaves the scratch, whatever
    it held, at `k1_pay2 k1_pay1 a y`; the other four buffers it is passed are not touched (so not mentioned). -/
theorem main_body_first (c : Dev nD) (E : Set ℕ) (i : grid1.Coords) (hf : atFirstK i) (hl : ¬ atLastK i)
    (aA : Memref sig .tc .vmem S1024x4096 .bf16) (hA : aA.IsWhole) (aY : Memref sig .tc .vmem S4096x128 .bf16) (hY : aY.IsWhole)
    (aX : Memref sig .tc .vmem S1024x128 .f32) (hX : aX.IsWhole) (aB : Memref sig .tc .vmem S128x128 .f32) (hB : aB.IsWhole)
    (aQ : Memref sig .tc .vmem S1024x1 .f32) (hQ : aQ.IsWhole) (aO : Memref sig .tc .vmem S1024x128 .f32) (hO : aO.IsWhole)
    (aS : Memref sig .tc .vmem S1024x128 .f32) (hS : aS.IsWhole)
    (a : Vec F S1024x4096 .bf16) (y : Vec F S4096x128 .bf16) (K : PUnit → sProp 𝕄) :
    iprop(owns (c : Thread nD τ) aA fullShare a ∗ owns (c : Thread nD τ) aY fullShare y ∗ (∃ d, owns (c : Thread nD τ) aS fullShare d)
        ∗ (iprop(owns (c : Thread nD τ) aA fullShare a ∗ owns (c : Thread nD τ) aY fullShare y
            ∗ owns (c : Thread nD τ) aS fullShare (k1_pay2 k1_pay1 a y)) -∗ K ⟨⟩))
      ⊢ wp frame (wpE (defs₀ (F := F)) Variants.none c none) E (cc1__main_kernel_body i aA hA aY hY aX hX aB hB aQ hQ aO hO aS hS) K := by
  simp only [cc1__main_kernel_body_eq_skeleton]; unfold cc1__main_kernel_body_skel
  unfold owns
  iintro ⟨⟨%f0, %hf0, H0⟩, ⟨%f1, %hf1, H1⟩, ⟨%ds, %fs, -, HS⟩, Hk⟩
  subst hf0; subst hf1
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  refine (read_store_last _ _ zero2 _ _ _).trans ?_
  simp only [View.readAt_eq_ld, View.readCov_unit_zero (S := S1024x128) _ zero2, View.ld_unit_zero (S := S1024x128) zero2,
    View.ld_unit_zero (S := S1024x4096) zero2, View.ld_unit_zero (S := S4096x128) zero2, View.ld_unit_zero (S := S128x128) zero2,
    View.ld_unit_zero (S := S1024x1) zero2]

/-! ## Region 1: the body at a last K block -/

set_option maxHeartbeats 1000000 in
/-- At a last K block the body finds the scratch at `s`, leaves it at `k1_pay2 s a y`, and stores
    `k1_pay3 x b (k1_pay2 s a y) q` into the output block, whatever that held. -/
theorem main_body_last (c : Dev nD) (E : Set ℕ) (i : grid1.Coords) (hf : ¬ atFirstK i) (hl : atLastK i)
    (aA : Memref sig .tc .vmem S1024x4096 .bf16) (hA : aA.IsWhole) (aY : Memref sig .tc .vmem S4096x128 .bf16) (hY : aY.IsWhole)
    (aX : Memref sig .tc .vmem S1024x128 .f32) (hX : aX.IsWhole) (aB : Memref sig .tc .vmem S128x128 .f32) (hB : aB.IsWhole)
    (aQ : Memref sig .tc .vmem S1024x1 .f32) (hQ : aQ.IsWhole) (aO : Memref sig .tc .vmem S1024x128 .f32) (hO : aO.IsWhole)
    (aS : Memref sig .tc .vmem S1024x128 .f32) (hS : aS.IsWhole)
    (a : Vec F S1024x4096 .bf16) (y : Vec F S4096x128 .bf16) (x : Vec F S1024x128 .f32) (b : Vec F S128x128 .f32)
    (q : Vec F S1024x1 .f32) (s : Vec F S1024x128 .f32) (K : PUnit → sProp 𝕄) :
    iprop(owns (c : Thread nD τ) aA fullShare a ∗ owns (c : Thread nD τ) aY fullShare y ∗ owns (c : Thread nD τ) aX fullShare x
        ∗ owns (c : Thread nD τ) aB fullShare b ∗ owns (c : Thread nD τ) aQ fullShare q ∗ (∃ d, owns (c : Thread nD τ) aO fullShare d)
        ∗ owns (c : Thread nD τ) aS fullShare s
        ∗ (iprop(owns (c : Thread nD τ) aA fullShare a ∗ owns (c : Thread nD τ) aY fullShare y ∗ owns (c : Thread nD τ) aX fullShare x
            ∗ owns (c : Thread nD τ) aB fullShare b ∗ owns (c : Thread nD τ) aQ fullShare q
            ∗ owns (c : Thread nD τ) aO fullShare (k1_pay3 x b (k1_pay2 s a y) q)
            ∗ owns (c : Thread nD τ) aS fullShare (k1_pay2 s a y)) -∗ K ⟨⟩))
      ⊢ wp frame (wpE (defs₀ (F := F)) Variants.none c none) E (cc1__main_kernel_body i aA hA aY hY aX hX aB hB aQ hQ aO hO aS hS) K := by
  simp only [cc1__main_kernel_body_eq_skeleton]; unfold cc1__main_kernel_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    refine (read_store_last _ _ zero2 _ _ _).trans ?_
    simp only [View.readAt_eq_ld, View.readCov_unit_zero (S := S1024x128) _ zero2, View.ld_unit_zero (S := S1024x128) zero2,
    View.ld_unit_zero (S := S1024x4096) zero2, View.ld_unit_zero (S := S4096x128) zero2, View.ld_unit_zero (S := S128x128) zero2,
    View.ld_unit_zero (S := S1024x1) zero2]
  iexists _; isplitr
  swap; · iexact HS
  ipureintro
  sl_unfold_words
  refine (read_store_last _ _ zero2 _ _ _).trans ?_
  simp only [View.readAt_eq_ld, View.readCov_unit_zero (S := S1024x128) _ zero2, View.ld_unit_zero (S := S1024x128) zero2,
    View.ld_unit_zero (S := S1024x4096) zero2, View.ld_unit_zero (S := S4096x128) zero2, View.ld_unit_zero (S := S128x128) zero2,
    View.ld_unit_zero (S := S1024x1) zero2]

end Cert.KernelIdeal.Hand

end
-- ==== Proof.KI.Region0.lean ====
/-
  Region 0 as the pipeline runs it, from any contents `V` of the TensorCore's buffers at the region's entry.

  The grid has 8 points; point `t` stages rows 1024·t … 1024·t + 1023 of x (window 0), the whole of W (window 1, fetched
  once and left in place), and writes back rows 1024·t … of the output (window 2). `blk0 V c w t` is the block of
  window `w`'s array that point `t` stages, read off `V`. The body reads its two input buffers, leaves them as they
  were, and leaves the output buffer at `k0_pay1` of the two blocks (Bodies.lean, `xw_body`): that is the proof data
  `dat0`, whose invariant is the class's (`ΦA`: the kernel keeps nothing between points), and `body_obligation0` is the
  pipeline library's obligation for it.
-/
import proofs.«115460_j79422535238375_1_alg».proof.Proof.Gen.KernelIdeal.Launch
import proofs.«115460_j79422535238375_1_alg».proof.Proof.Gen.KernelIdeal.Skeleton
import proofs.«115460_j79422535238375_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«115460_j79422535238375_1_alg».proof.Proof.KI.Bodies
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The block of window `w`'s array that point `t` of region 0 stages, read off the entry contents `V`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data on core `c`: the arrays as found; after the body at point `t` the x block and W in place and
    the output buffer at the x block times Wᵀ; nothing carried between points, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t) (blk0 V c 1 t)
  Φ _ := Pipeline.ΦA spec0 c
  q _ := fullShare
  owed _ := 0

theorem arr0 (c : Dev nD) (w : Fin cfg0.W) : (dat0 V c).A w = V c (Pipeline.arrRef spec0 w) := by dsimp only [dat0]
theorem after0_x (c : Dev nD) (t : Fin cfg0.N) : (dat0 V c).after 0 t = blk0 V c 0 t := by dsimp only [dat0]
theorem after0_w (c : Dev nD) (t : Fin cfg0.N) : (dat0 V c).after 1 t = blk0 V c 1 t := by dsimp only [dat0]
theorem after0_y (c : Dev nD) (t : Fin cfg0.N) : (dat0 V c).after 2 t = k0_pay1 (blk0 V c 0 t) (blk0 V c 1 t) := by dsimp only [dat0]

/-- When the body runs at point `t` the x window's buffer holds block `t` of x (it is fetched at every point), -/
theorem before0_x (c : Dev nD) (t : Fin cfg0.N) (d) : (dat0 V c).before 0 t d = blk0 V c 0 t :=
  ((dat0 V c).before_in_eq_fetched 0 rfl (fun _ => rfl) (fun _ _ _ => rfl)
    (fun t => by rw [after0_x]; unfold Dat.blockOf blk0; rw [arr0]; try rfl) t d).trans
    (by unfold Dat.fetched Dat.blockOf blk0; rw [arr0]; try rfl)
/-- and W's buffer holds W, fetched at the first point and left in place by the body ever since. -/
theorem before0_w (c : Dev nD) (t : Fin cfg0.N) (d) : (dat0 V c).before 1 t d = blk0 V c 1 t :=
  ((dat0 V c).before_in_eq_fetched 1 rfl (fun _ => rfl) (fun _ _ _ => rfl)
    (fun t => by rw [after0_w]; unfold Dat.blockOf blk0; rw [arr0]; try rfl) t d).trans
    (by unfold Dat.fetched Dat.blockOf blk0; rw [arr0]; try rfl)

/-- The body at a point of region 0, over the three windows' current staging buffers. -/
theorem region0_point (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  simp only [before0_x, before0_w]
  rw [show (dat0 V c).Φ t.succ = (dat0 V c).Φ t.castSucc from rfl,
    show (dat0 V c).owesAt () t.succ = (dat0 V c).owesAt () t.castSucc from rfl, after0_x, after0_w, after0_y]
  unfold bodyAt0
  iintro ⟨HΦ, Ho, ⟨%d0, H0⟩, ⟨%d1, H1⟩, ⟨%d2, H2⟩⟩
  iapply (xw_body c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for region 0, at every point. -/
theorem body_obligation0 (c : Dev nD) : BodyObligation (dat0 (F := F) V c) (defs₀ (F := F)) Variants.none () Set.univ := fun t => by
  rw [bigSep_W0, bigSep_W0]
  exact region0_point V c t

end Region0

end Cert.KernelIdeal.Hand

end
-- ==== Proof.KI.Region1.lean ====
/-
  Region 1 as the pipeline runs it, from any contents `V` of the TensorCore's buffers at the region's entry.

  The grid is 8 row blocks × 2 K blocks, numbered row block by row block: point `t` is row block t / 2, K block t % 2. It
  stages the adjacency's block (rows 1024·(t/2) …, columns 4096·(t%2) …; window 0), rows 4096·(t%2) … of x·Wᵀ
  (window 1), the row block of x (window 2), B (window 3), the row block of the reciprocal degrees (window 4), and writes
  the row block of the output back at the odd points (window 5). `blk1 V c w t` is the block of window `w`'s array at `t`.

  The kernel keeps an accumulator in a scratch buffer. It is reset at every even point, so what it holds after a point
  has a closed form with no recursion over the grid: after an even point, the first K block's product `acc1`; after an
  odd point, the second K block's product added to the `acc1` of the point before (`accAfter`). At an odd point the
  output buffer is left at `outAfter`: the accumulator scaled row by row by the reciprocal degrees, plus the x block
  times Bᵀ. At an even point the output buffer is not stored into (the window is idle there and not written back).

  The region's invariant `inv1` says where the scratch stands: before the first point the class's invariant (the scratch
  at anything); after point `n`, the scratch at `accAfter n` — beside region 0's five staging buffers, unused here, and
  the generator register. `dat1` is the proof data, `body_obligation1` the pipeline library's obligation for it.
-/
import proofs.«115460_j79422535238375_1_alg».proof.Proof.Gen.KernelIdeal.Launch
import proofs.«115460_j79422535238375_1_alg».proof.Proof.Gen.KernelIdeal.Skeleton
import proofs.«115460_j79422535238375_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«115460_j79422535238375_1_alg».proof.Proof.KI.Bodies
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The block of window `w`'s array that point `t` of region 1 stages, read off the entry contents `V`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point before `t` (point 0 for `t = 0`, where it is never consulted). -/
def prevPt (t : Fin cfg1.N) : Fin cfg1.N := ⟨t.val - 1, Nat.lt_of_le_of_lt (Nat.sub_le _ _) t.isLt⟩

/-- The accumulator after a first K block: zero plus that block's product. -/
def acc1 (c : Dev nD) (t : Fin cfg1.N) : Vec F S1024x128 .f32 := k1_pay2 k1_pay1 (blk1 V c 0 t) (blk1 V c 1 t)

/-- The accumulator after point `t`: at an even point the first K block's product; at an odd point the second K
    block's product added to the first's, which the point before left. -/
def accAfter (c : Dev nD) (t : Fin cfg1.N) : Vec F S1024x128 .f32 :=
  if t.val % 2 = 0 then acc1 V c t else k1_pay2 (acc1 V c (prevPt t)) (blk1 V c 0 t) (blk1 V c 1 t)

/-- The output buffer after an odd point: the accumulator scaled by the reciprocal degrees, plus the x block times Bᵀ. -/
def outAfter (c : Dev nD) (t : Fin cfg1.N) : Vec F S1024x128 .f32 :=
  k1_pay3 (blk1 V c 2 t) (blk1 V c 3 t) (accAfter V c t) (blk1 V c 4 t)

theorem accAfter_even (c : Dev nD) (t : Fin cfg1.N) (h : t.val % 2 = 0) : accAfter V c t = acc1 V c t := if_pos h
theorem accAfter_odd (c : Dev nD) (t : Fin cfg1.N) (h : t.val % 2 = 1) :
    accAfter V c t = k1_pay2 (acc1 V c (prevPt t)) (blk1 V c 0 t) (blk1 V c 1 t) := if_neg (by omega)

/-! ## The invariant: where the scratch stands -/

/-- The scratch accumulator as a memref. -/
abbrev accBuf : Memref sig .tc .vmem S1024x128 .f32 := Memref.whole cc1_scratch0

/-- What rides through region 1 beside the scratch: region 0's five staging buffers, each whole at some contents, and
    the generator register at some state. -/
def beside1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ ∃ r, prngReg c r)

/-- The class's invariant of region 1 is `beside1` with the scratch at anything: one way, -/
theorem classInv1_split (c : Dev nD) :
    (Pipeline.ΦA spec1 c : sProp 𝕄) ⊢ iprop(beside1 c ∗ ∃ d, owns (c : Thread nD τ) accBuf fullShare d) := by
  unfold Pipeline.ΦA beside1; rw [scopedRest1_eq]; simp only [accBuf, owns_whole]
  iintro ⟨⟨A, B, C, D, E, S⟩, G⟩
  isplitr [S]
  · isplitr [G]
    · isplitl [A]; · iexact A
      isplitl [B]; · iexact B
      isplitl [C]; · iexact C
      isplitl [D]; · iexact D
      iexact E
    · iexact G
  · iexact S

/-- and the other. -/
theorem classInv1_join (c : Dev nD) :
    iprop(beside1 c ∗ ∃ d, owns (c : Thread nD τ) accBuf fullShare d) ⊢ (Pipeline.ΦA spec1 c : sProp 𝕄) := by
  unfold Pipeline.ΦA beside1; rw [scopedRest1_eq]; simp only [accBuf, owns_whole]
  iintro ⟨⟨⟨A, B, C, D, E⟩, G⟩, S⟩
  isplitr [G]
  · isplitl [A]; · iexact A
    isplitl [B]; · iexact B
    isplitl [C]; · iexact C
    isplitl [D]; · iexact D
    isplitl [E]; · iexact E
    iexact S
  · iexact G

/-- The accumulator's contents can be forgotten. -/
theorem forget_acc (c : Dev nD) (s : Vec F S1024x128 .f32) :
    iprop(beside1 c ∗ owns (c : Thread nD τ) accBuf fullShare s) ⊢ (iprop(beside1 c ∗ ∃ d, owns (c : Thread nD τ) accBuf fullShare d) : sProp 𝕄) := by
  iintro ⟨Hb, Hs⟩
  isplitl [Hb]; · iexact Hb
  iexists _; iexact Hs

/-- The invariant before point `n` (after point `n - 1`). -/
def inv1 (c : Dev nD) (n : Fin (cfg1.N + 1)) : sProp 𝕄 :=
  if h : n.val = 0 then Pipeline.ΦA spec1 c
  else iprop(beside1 c ∗ owns (c : Thread nD τ) accBuf fullShare (accAfter V c ⟨n.val - 1, by have := n.isLt; omega⟩))

theorem inv1_first (c : Dev nD) : inv1 V c 0 = Pipeline.ΦA spec1 c := dif_pos rfl

/-- After point `t` the scratch is at `accAfter t`. -/
theorem inv1_after (c : Dev nD) (t : Fin cfg1.N) :
    inv1 V c t.succ = iprop(beside1 c ∗ owns (c : Thread nD τ) accBuf fullShare (accAfter V c t)) := by
  unfold inv1
  rw [dif_neg (by rw [Fin.val_succ]; omega)]
  congr

/-- Before point `t`, whichever it is, the scratch is at SOME contents. -/
theorem inv1_before_some (c : Dev nD) (t : Fin cfg1.N) :
    inv1 V c t.castSucc ⊢ iprop(beside1 c ∗ ∃ d, owns (c : Thread nD τ) accBuf fullShare d) := by
  unfold inv1
  by_cases h : t.castSucc.val = 0
  · rw [dif_pos h]; exact classInv1_split c
  · rw [dif_neg h]; exact forget_acc c _

/-- Before an odd point the scratch is at the first K block's product of the point before. -/
theorem inv1_before_odd (c : Dev nD) (t : Fin cfg1.N) (h : t.val % 2 = 1) :
    inv1 V c t.castSucc = iprop(beside1 c ∗ owns (c : Thread nD τ) accBuf fullShare (acc1 V c (prevPt t))) := by
  unfold inv1
  rw [dif_neg (by rw [Fin.val_castSucc]; omega)]
  have hp : (⟨t.castSucc.val - 1, by have := t.castSucc.isLt; omega⟩ : Fin cfg1.N) = prevPt t := Fin.ext (by simp [prevPt])
  rw [hp, accAfter_even V c (prevPt t) (by show (t.val - 1) % 2 = 0; omega)]

/-! ## The proof data -/

/-- Region 1's proof data on core `c`: the arrays as found; after the body at point `t` the five input blocks in
    place and the output buffer at `outAfter t` (consulted at the odd points only); the invariant `inv1`; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outAfter V c t
  Φ n := inv1 V c n
  q _ := fullShare
  owed _ := 0

theorem arr1 (c : Dev nD) (w : Fin cfg1.W) : (dat1 V c).A w = V c (Pipeline.arrRef spec1 w) := by dsimp only [dat1]
theorem after1_a (c : Dev nD) (t : Fin cfg1.N) : (dat1 V c).after 0 t = blk1 V c 0 t := by dsimp only [dat1]
theorem after1_y (c : Dev nD) (t : Fin cfg1.N) : (dat1 V c).after 1 t = blk1 V c 1 t := by dsimp only [dat1]
theorem after1_x (c : Dev nD) (t : Fin cfg1.N) : (dat1 V c).after 2 t = blk1 V c 2 t := by dsimp only [dat1]
theorem after1_b (c : Dev nD) (t : Fin cfg1.N) : (dat1 V c).after 3 t = blk1 V c 3 t := by dsimp only [dat1]
theorem after1_q (c : Dev nD) (t : Fin cfg1.N) : (dat1 V c).after 4 t = blk1 V c 4 t := by dsimp only [dat1]
theorem after1_o (c : Dev nD) (t : Fin cfg1.N) : (dat1 V c).after 5 t = outAfter V c t := by dsimp only [dat1]

/-- When the body runs at point `t` each input window's buffer holds its block there, fetched at `t` or left in place
    by the body since an earlier point whose block it also was. -/
theorem before1_a (c : Dev nD) (t : Fin cfg1.N) (d) : (dat1 V c).before 0 t d = blk1 V c 0 t :=
  ((dat1 V c).before_in_eq_fetched 0 rfl (fun _ => rfl) (fun _ _ _ => rfl)
    (fun t => by rw [after1_a]; unfold Dat.blockOf blk1; rw [arr1]; try rfl) t d).trans
    (by unfold Dat.fetched Dat.blockOf blk1; rw [arr1]; try rfl)
theorem before1_y (c : Dev nD) (t : Fin cfg1.N) (d) : (dat1 V c).before 1 t d = blk1 V c 1 t :=
  ((dat1 V c).before_in_eq_fetched 1 rfl (fun _ => rfl) (fun _ _ _ => rfl)
    (fun t => by rw [after1_y]; unfold Dat.blockOf blk1; rw [arr1]; try rfl) t d).trans
    (by unfold Dat.fetched Dat.blockOf blk1; rw [arr1]; try rfl)
theorem before1_x (c : Dev nD) (t : Fin cfg1.N) (d) : (dat1 V c).before 2 t d = blk1 V c 2 t :=
  ((dat1 V c).before_in_eq_fetched 2 rfl (fun _ => rfl) (fun _ _ _ => rfl)
    (fun t => by rw [after1_x]; unfold Dat.blockOf blk1; rw [arr1]; try rfl) t d).trans
    (by unfold Dat.fetched Dat.blockOf blk1; rw [arr1]; try rfl)
theorem before1_b (c : Dev nD) (t : Fin cfg1.N) (d) : (dat1 V c).before 3 t d = blk1 V c 3 t :=
  ((dat1 V c).before_in_eq_fetched 3 rfl (fun _ => rfl) (fun _ _ _ => rfl)
    (fun t => by rw [after1_b]; unfold Dat.blockOf blk1; rw [arr1]; try rfl) t d).trans
    (by unfold Dat.fetched Dat.blockOf blk1; rw [arr1]; try rfl)
theorem before1_q (c : Dev nD) (t : Fin cfg1.N) (d) : (dat1 V c).before 4 t d = blk1 V c 4 t :=
  ((dat1 V c).before_in_eq_fetched 4 rfl (fun _ => rfl) (fun _ _ _ => rfl)
    (fun t => by rw [after1_q]; unfold Dat.blockOf blk1; rw [arr1]; try rfl) t d).trans
    (by unfold Dat.fetched Dat.blockOf blk1; rw [arr1]; try rfl)

/-! ## Where the output window is idle -/

/-- At an even point the body stores nothing into the output buffer and the pipeline does not write it back; -/
theorem out_idle_even : ∀ t : Fin cfg1.N, t.val % 2 = 0 → cfg1.idle 5 (grid1.coords t) = true := by decide +kernel
theorem out_kept_even : ∀ t : Fin cfg1.N, t.val % 2 = 0 → (cfg1.win 5).flush t = false := by decide +kernel
/-- at an odd point it stores into it. -/
theorem out_live_odd : ∀ t : Fin cfg1.N, t.val % 2 = 1 → cfg1.idle 5 (grid1.coords t) = false := by decide +kernel

/-! ## The body obligation -/

set_option maxHeartbeats 2000000 in
/-- The body at a point of region 1, over the six windows' current staging buffers: at an even point the first-K
    triple, the scratch taken at anything and handed back at `acc1`; at an odd point the last-K triple, the scratch taken
    at the point before's `acc1` and handed back at `accAfter`, the output buffer left at `outAfter`. -/
theorem region1_point (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d)))
      ⊢ wp frame (wpE (defs₀ (F := F)) Variants.none c none) Set.univ (bodyAt1 t) (fun _ =>
          iprop((dat1 V c).Φ t.succ ∗ (dat1 V c).owesAt () t.succ
            ∗ (dat1 V c).leavesExact 0 t ∗ (dat1 V c).leavesExact 1 t ∗ (dat1 V c).leavesExact 2 t
            ∗ (dat1 V c).leavesExact 3 t ∗ (dat1 V c).leavesExact 4 t ∗ (dat1 V c).leavesExact 5 t)) := by
  simp only [before1_a, before1_y, before1_x, before1_b, before1_q]
  rw [show (dat1 V c).owesAt () t.succ = (dat1 V c).owesAt () t.castSucc from rfl,
    show (dat1 V c).Φ t.succ = inv1 V c t.succ from rfl, show (dat1 V c).Φ t.castSucc = inv1 V c t.castSucc from rfl,
    inv1_after,
    show (dat1 V c).leavesExact 0 t = owns (c : Thread nD τ) (st1_0 t) fullShare (blk1 V c 0 t) from by
      unfold Dat.leavesExact; rw [show cfg1.idle 0 (cfg1.grid.coords t) = false from rfl, after1_a],
    show (dat1 V c).leavesExact 1 t = owns (c : Thread nD τ) (st1_1 t) fullShare (blk1 V c 1 t) from by
      unfold Dat.leavesExact; rw [show cfg1.idle 1 (cfg1.grid.coords t) = false from rfl, after1_y],
    show (dat1 V c).leavesExact 2 t = owns (c : Thread nD τ) (st1_2 t) fullShare (blk1 V c 2 t) from by
      unfold Dat.leavesExact; rw [show cfg1.idle 2 (cfg1.grid.coords t) = false from rfl, after1_x],
    show (dat1 V c).leavesExact 3 t = owns (c : Thread nD τ) (st1_3 t) fullShare (blk1 V c 3 t) from by
      unfold Dat.leavesExact; rw [show cfg1.idle 3 (cfg1.grid.coords t) = false from rfl, after1_b],
    show (dat1 V c).leavesExact 4 t = owns (c : Thread nD τ) (st1_4 t) fullShare (blk1 V c 4 t) from by
      unfold Dat.leavesExact; rw [show cfg1.idle 4 (cfg1.grid.coords t) = false from rfl, after1_q]]
  unfold bodyAt1
  by_cases hpar : t.val % 2 = 0
  · -- a first K block
    have hF : atFirstK (grid1.coords t) := (atFirstK_iff t).mpr hpar
    have hL : ¬ atLastK (grid1.coords t) := fun h => by have := (atLastK_iff t).mp h; omega
    rw [Dat.leavesExact_idle (dat1 V c) 5 t (out_idle_even t hpar) (out_kept_even t hpar), accAfter_even V c t hpar]
    iintro ⟨HΦ, Ho, ⟨%d0, H0⟩, ⟨%d1, H1⟩, ⟨%d2, H2⟩, ⟨%d3, H3⟩, ⟨%d4, H4⟩, ⟨%d5, H5⟩⟩
    ihave HΦ' := (inv1_before_some V c t) $$ HΦ
    icases HΦ' with ⟨Hb, HS⟩
    iapply (main_body_first c Set.univ (grid1.coords t) hF hL _ _ _ _ _ _ _ _ _ _ _ _ _ _ (blk1 V c 0 t) (blk1 V c 1 t) _)
    isplitl [H0]; · iexact H0
    isplitl [H1]; · iexact H1
    isplitl [HS]; · iexact HS
    iintro ⟨H0, H1, HS⟩
    isplitl [Hb HS]
    · isplitl [Hb]; · iexact Hb
      iexact HS
    isplitl [Ho]; · iexact Ho
    isplitl [H0]; · iexact H0
    isplitl [H1]; · iexact H1
    isplitl [H2]; · iexact H2
    isplitl [H3]; · iexact H3
    isplitl [H4]; · iexact H4
    iexists _; iexact H5
  · -- a last K block
    have hodd : t.val % 2 = 1 := by omega
    have hF : ¬ atFirstK (grid1.coords t) := fun h => hpar ((atFirstK_iff t).mp h)
    have hL : atLastK (grid1.coords t) := (atLastK_iff t).mpr hodd
    rw [show (dat1 V c).leavesExact 5 t = owns (c : Thread nD τ) (st1_5 t) fullShare (outAfter V c t) from by
      unfold Dat.leavesExact; rw [out_live_odd t hodd, after1_o]]
    rw [inv1_before_odd V c t hodd]
    unfold outAfter
    rw [accAfter_odd V c t hodd]
    iintro ⟨⟨Hb, HS⟩, Ho, ⟨%d0, H0⟩, ⟨%d1, H1⟩, ⟨%d2, H2⟩, ⟨%d3, H3⟩, ⟨%d4, H4⟩, ⟨%d5, H5⟩⟩
    iapply (main_body_last c Set.univ (grid1.coords t) hF hL _ _ _ _ _ _ _ _ _ _ _ _ _ _ (blk1 V c 0 t) (blk1 V c 1 t)
      (blk1 V c 2 t) (blk1 V c 3 t) (blk1 V c 4 t) (acc1 V c (prevPt t)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [Hb HS]
    · isplitl [Hb]; · iexact Hb
      iexact HS
    isplitl [Ho]; · iexact Ho
    isplitl [H0]; · iexact H0
    isplitl [H1]; · iexact H1
    isplitl [H2]; · iexact H2
    isplitl [H3]; · iexact H3
    isplitl [H4]; · iexact H4
    iexact H5

/-- The pipeline library's body obligation for region 1, at every point. -/
theorem body_obligation1 (c : Dev nD) : BodyObligation (dat1 (F := F) V c) (defs₀ (F := F)) Variants.none () Set.univ := fun t => by
  rw [bigSep_W1, bigSep_W1]
  exact region1_point V c t

/-- The class's invariant is the region's before its first point, -/
theorem inv1_in (c : Dev nD) : Pipeline.ΦA spec1 c ⊢ (dat1 V c).Φ 0 := by
  rw [show (dat1 V c).Φ 0 = inv1 V c 0 from rfl, inv1_first]

/-- and after the last point the region's invariant gives the class's back, the accumulator's contents forgotten. -/
theorem inv1_out (c : Dev nD) : (dat1 V c).Φ (Fin.last cfg1.N) ⊢ Pipeline.ΦA spec1 c := by
  rw [show (dat1 V c).Φ (Fin.last cfg1.N) = inv1 V c (Fin.last cfg1.N) from rfl]
  unfold inv1
  rw [dif_neg (by rw [Fin.val_last]; have : cfg1.N = 16 := N_1; omega)]
  exact (forget_acc c _).trans (classInv1_join c)

end Region1

end Cert.KernelIdeal.Hand

end
-- ==== Proof.KI.Arrays.lean ====
/-
  What the TensorCore's buffers hold at the two regions' entries and what the regions leave, from the launch memory `m`.

  Region 0 finds `entry0 m`: the launch memory after the three stretches of host operations (the adjacency, the
  reciprocal degrees and their operands computed, the arguments untouched). It leaves its output array — x·Wᵀ — at
  `xwArr m`: the pipeline library's fold of the eight write-backs of `dat0`'s output blocks. Region 1 finds `entry1 m`:
  the same contents with x·Wᵀ's buffer at `xwArr m`; it leaves its output array at `outArr m`, the fold of the eight
  write-backs (at the odd points) of `dat1`'s output blocks. `outs m` names these two arrays as the contents the
  conditional frame of the program is stated over.
-/
import proofs.«115460_j79422535238375_1_alg».proof.Proof.Gen.KernelIdeal.Launch
import proofs.«115460_j79422535238375_1_alg».proof.Proof.Gen.KernelIdeal.Skeleton
import proofs.«115460_j79422535238375_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«115460_j79422535238375_1_alg».proof.Proof.KI.Region0
import proofs.«115460_j79422535238375_1_alg».proof.Proof.KI.Region1
import proofs.«115460_j79422535238375_1_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What region 0 finds in the TensorCore's buffers. -/
def entry0 (c : Dev nD) (b : Ref sig .tc) : Buf (Elt F) ((c : Thread nD τ).loc b) := Gen.V3 m c b

/-- x·Wᵀ as region 0 leaves it: its output array after the eight write-backs. -/
def xwArr (c : Dev nD) : Buf (Elt F) ((c : Thread nD τ).loc main_v30) := (dat0 (entry0 m) c).arrAt 2 cfg0.N

/-- What region 1 finds: region 0's entry contents with x·Wᵀ's buffer at what region 0 left. -/
def entry1 (c : Dev nD) (b : Ref sig .tc) : Buf (Elt F) ((c : Thread nD τ).loc b) :=
  (Function.update (Gen.V3 m c) main_v30 (xwArr m c)) b

/-- The layer's output as region 1 leaves it: its output array after the write-backs at the odd points. -/
def outArr (c : Dev nD) : Buf (Elt F) ((c : Thread nD τ).loc main_v31) := (dat1 (entry1 m) c).arrAt 5 cfg1.N

/-- The two arrays the regions leave, as the contents the program's conditional frame is stated over (elsewhere: the
    contents region 0 found, which nothing reads). -/
def outs : Gen.Outs (F := F) := fun _ r c =>
  if h : r = main_v30 then h ▸ xwArr m c
  else if h' : r = main_v31 then h' ▸ outArr m c
  else Gen.V3 m c r

theorem outs_xw (c : Dev nD) : outs m 4 main_v30 c = xwArr m c := by unfold outs; rw [dif_pos rfl]
theorem outs_out (c : Dev nD) : outs m 5 main_v31 c = outArr m c := by
  unfold outs; rw [dif_neg (by decide), dif_pos rfl]

/-- Region 1's entry contents are the conditional frame's contents after region 0. -/
theorem entry1_eq (c : Dev nD) (b : Ref sig .tc) : Gen.V4 m (outs m) c b = entry1 m c b := by
  unfold entry1; rw [show Gen.V4 m (outs m) c = Function.update (Gen.V3 m c) main_v30 (outs m 4 main_v30 c) from rfl, outs_xw]

/-- At x·Wᵀ's buffer region 1 finds what region 0 left; -/
theorem entry1_xw (c : Dev nD) : entry1 m c main_v30 = xwArr m c := by
  unfold entry1; exact Function.update_self ..

/-- everywhere else what region 0 found. -/
theorem entry1_other (c : Dev nD) (b : Ref sig .tc) (h : b ≠ main_v30) : entry1 m c b = entry0 m c b := by
  unfold entry1 entry0
  exact Function.update_of_ne (StableHlo.devRef_ne_of_ne h) _ _

end Cert.KernelIdeal.Hand

end
-- ==== Proof.KI.Frame.lean ====
/-
  The frame of the program: from any launch memory, every run of @main terminates with the four argument arrays
  (x, the edge list, W and B) holding what they held at launch.

  Between two items of @main a TensorCore holds every unscoped buffer whole at a known valuation and, beside them, its
  generator register at some state and the fact that it owes nothing ("rest"). The two kernel regions are described
  over that state.

  Region 0 is entered at the valuation the three host stretches leave. Its arrays are x and W (read) and the buffer
  of x·Wᵀ (written): they are taken out of the unscoped buffers at the entry, every other buffer rides along
  untouched, and at the exit they are put back, x and W as they were and x·Wᵀ's buffer at "xwArr".

  Region 1 is entered at that valuation with x·Wᵀ in place. Its arrays are the adjacency, x·Wᵀ, x, B and the
  reciprocal degrees (read) and the output buffer (written): taken out at the entry, put back at the exit with the
  five inputs as they were and the output buffer at "outArr"; every other buffer rides along.

  In both regions the generator register passes through the kernel's invariant and comes back at some state; neither
  kernel has a semaphore of its own or a prefetched table, and neither takes on anything owed.
-/
import proofs.«115460_j79422535238375_1_alg».proof.Proof.Gen.KernelIdeal.Launch
import proofs.«115460_j79422535238375_1_alg».proof.Proof.Gen.KernelIdeal.Skeleton
import proofs.«115460_j79422535238375_1_alg».proof.Proof.Gen.KernelIdeal.Points
import Idealize.ShloMosaic.Lib.Pipeline.FrameBody
import Idealize.ShloMosaic.Lib.Pipeline.Value
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic
import proofs.«115460_j79422535238375_1_alg».proof.Proof.KI.Region0
import proofs.«115460_j79422535238375_1_alg».proof.Proof.KI.Region1
import proofs.«115460_j79422535238375_1_alg».proof.Proof.Gen.KernelIdeal.Regions
import proofs.«115460_j79422535238375_1_alg».proof.Proof.KI.Arrays
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What rides beside the buffers -/

/-- No core waits for another: no level is assigned. -/
abbrev noPairs : GSem nD τ sig → Finset Unit := fun _ => ∅
abbrev noLevel : GSem nD τ sig → Unit → ℕ := fun _ _ => 0

/-- What a core holds beside its unscoped buffers between two items of @main: its generator register at some state,
    and that it owes nothing. -/
abbrev rest (c : Dev nD) : sProp 𝕄 :=
  iprop((∃ r, prngReg c r) ∗ ∃ W, owes (c : Thread nD τ) (0 : CellTallies nD τ sig Unit) W)

/-- The same before region 0, between the regions and after region 1. -/
abbrev rests : Fin 3 → Dev nD → sProp 𝕄 := fun _ c => rest c

/-- The two regions' proof data, each at what its region finds in the buffers. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

/-! ## Owing nothing, inside and outside a region -/

/-- A core that owes nothing owes, before any point of a region whose data name no tallies and bound no recorded
    pairs, what the data say. -/
theorem owesNothing_in {cfg : Cfg sig Λ₀} {c : Dev nD} (dat : Dat τ (Elt F) Unit ℕ (UR sig nD τ) ℕ cfg c) (t : Fin (cfg.N + 1))
    (hO : dat.owed t = 0) (hR : dat.recorded t = Set.univ) :
    (iprop(∃ W, owes (c : Thread nD τ) (0 : CellTallies nD τ sig Unit) W) : sProp 𝕄) ⊢ dat.owesAt () t := by
  unfold Pipeline.Dat.owesAt Pipeline.owesWithin
  rw [hO]
  iintro ⟨%W, Ho⟩
  iexists W
  isplitr
  · ipureintro
    intro x _
    left
    rw [hR]
    trivial
  · iexact Ho

/-- and the other way: the bound on the recorded pairs is dropped. -/
theorem owesNothing_out {cfg : Cfg sig Λ₀} {c : Dev nD} (dat : Dat τ (Elt F) Unit ℕ (UR sig nD τ) ℕ cfg c) (t : Fin (cfg.N + 1))
    (hO : dat.owed t = 0) :
    dat.owesAt () t ⊢ (iprop(∃ W, owes (c : Thread nD τ) (0 : CellTallies nD τ sig Unit) W) : sProp 𝕄) := by
  unfold Pipeline.Dat.owesAt Pipeline.owesWithin
  rw [hO]
  iintro ⟨%W, -, Ho⟩
  iexists W
  iexact Ho

/-- Neither kernel prefetches a table: there is none to hold. -/
theorem noTables (p : Fin 2) (c : Dev nD) :
    (BI.emp : sProp 𝕄) ⊢ Pipeline.prefHeld (pcfgs (F := F) p).pre c (fun _ => fullShare) (adm p).1 := by
  unfold Pipeline.prefHeld
  rw [show (Finset.univ : Finset (Fin 0)) = ∅ from rfl, BI.bigSep_empty]

/-! ## Region 0: x and W in, x·Wᵀ out -/

/-- The buffer of x·Wᵀ is region 0's third array; after the region it holds what the region left, -/
theorem exit0_xw (c : Dev nD) : Gen.V4 m (outs m) c main_v30 = (dat0 (entry0 m) c).arrAt 2 cfg0.N := by
  rw [show Gen.V4 m (outs m) c = Function.update (Gen.V3 m c) main_v30 (outs m 4 main_v30 c) from rfl,
    Function.update_self, outs_xw]
  rfl

/-- and every other buffer what region 0 found. -/
theorem exit0_other (c : Dev nD) (b : Ref sig .tc) (h : b ≠ main_v30) : Gen.V4 m (outs m) c b = Gen.V3 m c b :=
  Gen.V4_of m (outs m) c b (by simpa using h)

-- the library's lemmas on a region's arrays are stated over the pinned configuration of the pipeline: matching them
-- against this region's takes unfolding plain definitions inside types
set_option backward.isDefEq.respectTransparency.types false in
/-- Region 0 between "every unscoped buffer as the host stretches left it, the rest" and "the same with x·Wᵀ's buffer
    at what the region left, the rest". -/
def region0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noPairs noLevel 0 fun _ _ => rfl
  pre c := iprop(StableHlo.held (c : Thread nD τ) (Pipeline.ucRefs τ sig) (Gen.V3 m c) ∗ rests 0 c)
  post c := iprop(StableHlo.held (c : Thread nD τ) (Pipeline.ucRefs τ sig) (Gen.V4 m (outs m) c) ∗ rests 1 c)
  X c := iprop(∃ r, prngReg c r)
  Y c := iprop(∃ r, prngReg c r)
  Z c := Pipeline.unscopedRest (Ix := Unit) (Name := ℕ) (U := UR sig nD τ) (Lvl := ℕ) spec0 c (fun b => Gen.V3 m c b)
  hentry c := by
    -- x, W and x·Wᵀ's buffer leave the unscoped buffers; the others stay behind as "Z"
    have takeOut := Pipeline.arrays_of_unscopedBufs (p := 0) (pcfgs (F := F)) adm (pdats m) launch0.win launch0.arr_whole c
      ((pdats m 0 c).share_full fun _ => rfl) (fun b => Gen.V3 m c b) (fun w => arr0 (entry0 m) c w)
    rw [Pipeline.unscopedBufs_held] at takeOut
    rw [Pipeline.ownSems0_none]
    iintro ⟨⟨Hbufs, Hgen, Howe⟩, -, -⟩
    imodintro
    ihave Hs := takeOut $$ Hbufs
    icases Hs with ⟨Harr, Hoth⟩
    isplitl [Harr]; · iexact Harr
    isplitr; · iapply (noTables (F := F) 0 c); iempintro
    isplitl [Howe]; · iapply (owesNothing_in (pdats m 0 c) 0 rfl rfl); iexact Howe
    isplitl [Hgen]; · iexact Hgen
    iexact Hoth
  hin c := by
    -- the invariant is the class's: the scoped buffers no window stages, and the generator register
    rw [show (pdats m 0 c).Φ 0 = Pipeline.ΦA spec0 c from rfl]
    unfold Pipeline.ΦA
    iintro ⟨Hgen, -, Hscoped⟩
    isplitl [Hscoped]; · iexact Hscoped
    iexact Hgen
  hout c := by
    rw [show (pdats m 0 c).Φ (Fin.last _) = Pipeline.ΦA spec0 c from rfl, Pipeline.ownSems0_none]
    unfold Pipeline.ΦA
    iintro ⟨Hscoped, Hgen⟩
    isplitl [Hgen]; · iexact Hgen
    isplitr; · iempintro
    iexact Hscoped
  hexit c := by
    -- the three arrays go back: x and W as found, x·Wᵀ's buffer at what the write-backs left
    have putBack := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => Gen.V3 m c b) (fun b => Gen.V4 m (outs m) c b) ((pdats m 0 c).arrAt · cfg0.N)
      (fun w => by
        fin_cases w
        · exact (((pdats m 0 c).arrAt_in 0 rfl _).trans (arr0 (entry0 m) c 0)).trans (exit0_other m c main_arg0 (by decide)).symm
        · exact (((pdats m 0 c).arrAt_in 1 rfl _).trans (arr0 (entry0 m) c 1)).trans (exit0_other m c main_arg2 (by decide)).symm
        · exact (exit0_xw m c).symm)
      (fun b hb => exit0_other m c b fun h => hb (h ▸ Finset.mem_image.mpr ⟨2, Finset.mem_univ _, rfl⟩))
    rw [Pipeline.unscopedBufs_held] at putBack
    iintro ⟨Harr, Howe, Hgen, Hoth⟩
    imodintro
    isplitl [Harr Hoth]
    · iapply putBack
      isplitl [Harr]; · iexact Harr
      iexact Hoth
    isplitl [Hgen]; · iexact Hgen
    iapply (owesNothing_out (pdats m 0 c) (Fin.last _) rfl)
    iexact Howe

/-! ## Region 1: the adjacency, x·Wᵀ, x, B and the reciprocal degrees in, the layer's output out -/

/-- What region 1's data call its arrays are the buffers after region 0, -/
theorem entry1_arr (c : Dev nD) (w : Fin cfg1.W) : (dat1 (entry1 m) c).A w = Gen.V4 m (outs m) c (Pipeline.arrRef spec1 w) :=
  (arr1 (entry1 m) c w).trans (entry1_eq m c _).symm

/-- the output's buffer is region 1's sixth array; after the region it holds what the region left, -/
theorem exit1_out (c : Dev nD) : Gen.V5 m (outs m) c main_v31 = (dat1 (entry1 m) c).arrAt 5 cfg1.N := by
  rw [show Gen.V5 m (outs m) c = Function.update (Gen.V4 m (outs m) c) main_v31 (outs m 5 main_v31 c) from rfl,
    Function.update_self, outs_out]
  rfl

/-- and every other buffer what region 1 found. -/
theorem exit1_other (c : Dev nD) (b : Ref sig .tc) (h : b ≠ main_v31) : Gen.V5 m (outs m) c b = Gen.V4 m (outs m) c b :=
  Gen.V5_of m (outs m) c b (by simpa using h)

/-- An array region 1 only reads ends the region as it entered it. -/
theorem exit1_read (c : Dev nD) (w : Fin cfg1.W) (hr : (cfg1.win w).isOut = false) (hne : Pipeline.arrRef spec1 w ≠ main_v31) :
    (dat1 (entry1 m) c).arrAt w cfg1.N = Gen.V5 m (outs m) c (Pipeline.arrRef spec1 w) :=
  (((dat1 (entry1 m) c).arrAt_in w hr _).trans (entry1_arr m c w)).trans (exit1_other m c _ hne).symm

-- as for region 0: the library's lemmas are stated over the pinned configuration
set_option backward.isDefEq.respectTransparency.types false in
/-- Region 1 between "every unscoped buffer as region 0 left it, the rest" and "the same with the output's buffer at
    what the region left, the rest". The scratch accumulator is the kernel's own business: it enters and leaves inside
    the class's invariant. -/
def region1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noPairs noLevel 1 fun _ _ => rfl
  pre c := iprop(StableHlo.held (c : Thread nD τ) (Pipeline.ucRefs τ sig) (Gen.V4 m (outs m) c) ∗ rests 1 c)
  post c := iprop(StableHlo.held (c : Thread nD τ) (Pipeline.ucRefs τ sig) (Gen.V5 m (outs m) c) ∗ rests 2 c)
  X c := iprop(∃ r, prngReg c r)
  Y c := iprop(∃ r, prngReg c r)
  Z c := Pipeline.unscopedRest (Ix := Unit) (Name := ℕ) (U := UR sig nD τ) (Lvl := ℕ) spec1 c (fun b => Gen.V4 m (outs m) c b)
  hentry c := by
    -- the six arrays leave the unscoped buffers; the others stay behind as "Z"
    have takeOut := Pipeline.arrays_of_unscopedBufs (p := 1) (pcfgs (F := F)) adm (pdats m) launch1.win launch1.arr_whole c
      ((pdats m 1 c).share_full fun _ => rfl) (fun b => Gen.V4 m (outs m) c b) (fun w => entry1_arr m c w)
    rw [Pipeline.unscopedBufs_held] at takeOut
    rw [Pipeline.ownSems0_none]
    iintro ⟨⟨Hbufs, Hgen, Howe⟩, -, -⟩
    imodintro
    ihave Hs := takeOut $$ Hbufs
    icases Hs with ⟨Harr, Hoth⟩
    isplitl [Harr]; · iexact Harr
    isplitr; · iapply (noTables (F := F) 1 c); iempintro
    isplitl [Howe]; · iapply (owesNothing_in (pdats m 1 c) 0 rfl rfl); iexact Howe
    isplitl [Hgen]; · iexact Hgen
    iexact Hoth
  hin c := by
    -- before the first point the region's invariant is the class's
    refine BIBase.Entails.trans ?_ (inv1_in (entry1 m) c)
    unfold Pipeline.ΦA
    iintro ⟨Hgen, -, Hscoped⟩
    isplitl [Hscoped]; · iexact Hscoped
    iexact Hgen
  hout c := by
    -- after the last point it gives the class's back, the accumulator's contents forgotten
    refine (inv1_out (entry1 m) c).trans ?_
    rw [Pipeline.ownSems0_none]
    unfold Pipeline.ΦA
    iintro ⟨Hscoped, Hgen⟩
    isplitl [Hgen]; · iexact Hgen
    isplitr; · iempintro
    iexact Hscoped
  hexit c := by
    -- the six arrays go back: the five inputs as found, the output's buffer at what the write-backs left
    have putBack := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => Gen.V4 m (outs m) c b) (fun b => Gen.V5 m (outs m) c b) ((pdats m 1 c).arrAt · cfg1.N)
      (fun w => by
        fin_cases w
        · exact exit1_read m c 0 rfl (by decide)
        · exact exit1_read m c 1 rfl (by decide)
        · exact exit1_read m c 2 rfl (by decide)
        · exact exit1_read m c 3 rfl (by decide)
        · exact exit1_read m c 4 rfl (by decide)
        · exact (exit1_out m c).symm)
      (fun b hb => exit1_other m c b fun h => hb (h ▸ Finset.mem_image.mpr ⟨5, Finset.mem_univ _, rfl⟩))
    rw [Pipeline.unscopedBufs_held] at putBack
    iintro ⟨Harr, Howe, Hgen, Hoth⟩
    imodintro
    isplitl [Harr Hoth]
    · iapply putBack
      isplitl [Harr]; · iexact Harr
      iexact Hoth
    isplitl [Hgen]; · iexact Hgen
    iapply (owesNothing_out (pdats m 1 c) (Fin.last _) rfl)
    iexact Howe

/-! ## The launch -/

/-- The launch's ghost element is the pipeline library's for the two kernels' staging cells; no core gets anything more. -/
theorem launchGhost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  -- owning the launch element in the user algebra is owning its image in the whole one
  have asWhole : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  iintro Hu
  imodintro
  isplitl [Hu]
  · iapply asWhole; iexact Hu
  · rw [BI.bigSep_emp_const]; iempintro

/-- Of what the launch deals a core beside its buffers, the rest keeps the generator register (its launch state
    forgotten) and that the core owes nothing; the idle semaphores and the empty credit are let go. -/
theorem restAtLaunch :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLevel)
      ⊢ (|={Set.univ}=> bigSep Finset.univ (rests (F := F) 0) : sProp 𝕄) := by
  refine Pipeline.initEach noPairs noLevel fun c => ?_
  iintro ⟨⟨-, Howe, -, Hgen, -⟩, -⟩
  imodintro
  isplitl [Hgen]
  · iexists _; iexact Hgen
  · iexists ∅; iexact Howe

-- the conditional frame's implicit arguments are found by unifying its conclusion with this statement, which takes
-- unfolding plain definitions inside types
set_option backward.isDefEq.respectTransparency.types false in
/-- THE FRAME. From any launch memory with every counter at zero, every weakly fair run of @main on the TensorCores
    terminates and leaves x, the edge list, W and B as launched: the program's conditional frame, given the two regions
    above, the rest that rides between them and the two arrays they leave. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond (m := m) (EP := emb₁) (ι := ()) (𝒱₀ := Variants.none) (L := noPairs) (lv := noLevel) (hL := fun _ _ => rfl)
    (ρ := ρ) (outs := outs m) (pdats := pdats m) (O₀ := 0) (G := fun _ => BI.emp)
    (u₀ := initOf (Pipeline.cells cfgs cellOf_inj) (Pipeline.launchToks cfgs cellOf_inj)) (hu₀ := launchGhost)
    (E := rests) (hE0 := restAtLaunch ρ)
    (hE2 := fun c => by iintro ⟨-, Howe⟩; iexact Howe)
    (R0 := region0 m) (hpre0 := fun _ => .rfl) (hpost0 := fun _ => .rfl)
    (R1 := region1 m) (hpre1 := fun _ => .rfl) (hpost1 := fun _ => .rfl)

end Cert.KernelIdeal.Hand

end
-- ==== Proof.KI.RunOut.lean ====
/-
  The same run of @main, read at the result as well: every run terminates, the buffer of the layer's output ends at
  "outArr" — what region 1's write-backs leave — and the four argument arrays end as launched.

  The run is the one the frame describes: three host stretches over the unscoped buffers, then the two regions, each
  between the valuations before and after it, the rest riding along. What changes is only what is read at the end:
  the last valuation has the output's buffer at what region 1 left, and every argument at its launch contents.
-/
import Idealize.ShloMosaic.Lib.Pipeline.Frame
import Idealize.ShloMosaic.Lib.Pipeline.Regions
import Idealize.ShloMosaic.Lib.Pipeline.RegionsLoop
import Idealize.ShloMosaic.Lib.Tactic
import proofs.«115460_j79422535238375_1_alg».proof.Proof.Gen.KernelIdeal.Regions
import proofs.«115460_j79422535238375_1_alg».proof.Proof.KI.Arrays
import proofs.«115460_j79422535238375_1_alg».proof.Proof.KI.Frame
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two ends of the run -/

/-- What the launch deals a core is its first thread state: every unscoped buffer at the launch contents, and the rest. -/
theorem coreAtLaunch (c : Dev nD) :
    iprop(iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c
        ∗ prngReg c (ρ c) ∗ (BI.emp : sProp 𝕄)) ∗ levAts noPairs noLevel)
      ⊢ (|={Set.univ}=> iprop(StableHlo.held (c : Thread nD τ) (Pipeline.ucRefs τ sig) (Gen.V0 m c) ∗ rests (F := F) 0 c) : sProp 𝕄) := by
  rw [show unscopedBufs c (fun b => m ((c.tc : Thread nD τ).loc b)) = StableHlo.held (c : Thread nD τ) (Pipeline.ucRefs τ sig) (Gen.V0 m c)
    from Pipeline.unscopedBufs_held c (Gen.V0 m c)]
  iintro ⟨⟨Hbufs, -, Howe, -, Hgen, -⟩, -⟩
  imodintro
  isplitl [Hbufs]; · iexact Hbufs
  isplitl [Hgen]
  · iexists _; iexact Hgen
  · iexists ∅; iexact Howe

/-- An unscoped buffer of the TensorCore is among those the thread state holds. -/
theorem held_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last valuation has the output's buffer at what region 1 left. -/
theorem last_out (c : Dev nD) : Gen.V5 m (outs m) c main_v31 = outArr m c := exit1_out m c

/-- What the final memory is asked on core c: the output, then the four arguments. -/
abbrev endsRight (c : Dev nD) (s : MemSt nD τ sig (Elt F)) : Prop :=
  s.mem ((c.tc : Thread nD τ).loc main_v31) = outArr m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)

/-- A final state that holds every unscoped buffer at the last valuation answers that question. -/
theorem coreAtEnd (c : Dev nD) (s' : Phys nD τ sig (Elt F)) :
    iprop(StableHlo.held (c : Thread nD τ) (Pipeline.ucRefs τ sig) (Gen.V5 m (outs m) c) ∗ SI s')
      ⊢ (|={Set.univ}=> iprop(⌜endsRight m c s'.mem⌝ ∗ SI s') : sProp 𝕄) := by
  unfold StableHlo.held
  iintro ⟨Hbufs, Hsi⟩
  ihave Hread := (pointsTo_read_all (Pipeline.ucRefs τ sig) (fun b => ((c : Thread nD τ).1, b)) (Gen.V5 m (outs m) c) s') $$ [Hbufs Hsi]
  · isplitl [Hbufs]; · iexact Hbufs
    iexact Hsi
  icases Hread with ⟨%hmem, Hsi⟩
  imodintro
  isplitr
  · ipureintro
    refine ⟨?_, ?_, ?_, ?_, ?_⟩
    · exact (hmem (Proc.devRef .tc main_v31) (held_mem main_v31 (by decide))).trans (last_out m c)
    · exact (hmem (Proc.devRef .tc main_arg0) (held_mem main_arg0 (by decide))).trans (Gen.V5_main_arg0 m (outs m) c)
    · exact (hmem (Proc.devRef .tc main_arg1) (held_mem main_arg1 (by decide))).trans (Gen.V5_main_arg1 m (outs m) c)
    · exact (hmem (Proc.devRef .tc main_arg2) (held_mem main_arg2 (by decide))).trans (Gen.V5_main_arg2 m (outs m) c)
    · exact (hmem (Proc.devRef .tc main_arg3) (held_mem main_arg3 (by decide))).trans (Gen.V5_main_arg3 m (outs m) c)
  · iexact Hsi

/-! ## The run -/

/-- @main's five items on a core: the three host stretches, then the two regions. -/
abbrev items (c : Dev nD) : List (Seg (pcfgs (F := F)) adm (pdats m) () defs₀ Variants.none noPairs noLevel) :=
  Gen.segs m Variants.none noPairs noLevel rests () (pdats m) (region0 m) (region1 m) c

-- the launch theorem's implicit arguments are found by unifying its conclusion with this statement, which takes
-- unfolding plain definitions inside types
set_option backward.isDefEq.respectTransparency.types false in
/-- THE RUN, WITH ITS RESULT. From any launch memory with every counter at zero, every weakly fair run of @main on the
    TensorCores terminates; the output's buffer ends at "outArr m" and x, the edge list, W and B end as launched. -/
theorem run_out : θ_run (defs (F := F)) (onTc (τ := τ) (main (F := F))) ⟨m, fun _ => 0, ρ⟩ (fun r => ∀ c : Dev nD,
      r.2.mem ((c.tc : Thread nD τ).loc main_v31) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj emb₁ defs₀ Variants.none noPairs noLevel m ρ main
    (items m)
    (fun c Q => ?isMain)
    (fun c => ?once) 0 (fun _ _ => rfl) (fun _ => BI.emp)
    (initOf (Pipeline.cells cfgs cellOf_inj) (Pipeline.launchToks cfgs cellOf_inj)) launchGhost
    (T₀ := fun c => iprop(StableHlo.held (c : Thread nD τ) (Pipeline.ucRefs τ sig) (Gen.V0 m c) ∗ rests 0 c))
    (Tₙ := fun c => StableHlo.held (c : Thread nD τ) (Pipeline.ucRefs τ sig) (Gen.V5 m (outs m) c))
    (hch := fun c => ⟨.rfl, .rfl, .rfl, .rfl, .rfl, sep_mono .rfl (by iintro ⟨-, Howe⟩; iexact Howe)⟩)
    (hinit := Pipeline.initEach noPairs noLevel (coreAtLaunch m ρ))
    (QY := endsRight m)
    (hfin := coreAtEnd m)
    (hQ := fun _ h => h)
  case isMain =>
    -- @main is the chain of the five items' fragments
    rewrite [main_chain c, Seg.run_eq_chain,
      show (items m c).map Seg.prog = [
        StableHlo.seq hostOps0,
        StableHlo.seq hostOps0_1,
        StableHlo.seq hostOps0_2,
        Prog.lift (.customCall (Pipeline.entry 0) ()),
        Prog.lift (.customCall (Pipeline.entry 1) ()) ] from rfl]
    exact .rfl
  case once =>
    -- each kernel is entered once
    simp only [items, Gen.segs, Seg.pipes_host, Seg.pipes_region, Seg.pipes_nil]
    decide

end Cert.KernelIdeal.Hand

end
-- ==== Proof.Val.Spec.lean ====
/-
  What the layer computes, entry by entry over the extended reals, and the laws that join the kernel's arrangement of
  it to the reference's.

  With `a` the 8192×8192 adjacency (entries 0 or 1), `x` the 8192×128 features, `w` and `b` the two 128×128 weight
  matrices and `q r` the factor of row `r`, the layer's entry (r, c) is

      (∑ k, a (r, k) · (x·wᵀ) (k, c)) · q r  +  (x·bᵀ) (r, c),        (x·wᵀ) (k, c) = ∑ j, x (k, j) · w (c, j).

  The kernel reaches the sum over the 8192 neighbours in two halves of 4096, the second added to the first
  (`sum_two_halves`: only that addition of extended reals is commutative and associative), and multiplies by the
  reciprocal of the row's degree where the reference divides by the degree: for a degree that is a nonzero REAL the
  two agree on every extended real (`div_eq_mul_one_div`, from `Ideal.div_coe`) — no finiteness of the features is
  used. The degree is a count of edges with zero replaced by one, so it is such a real (`count_or_one`).
-/
import Idealize.ShloMosaic.PureOps.Ideal
import Idealize.ShloMosaic.PureOps.Ideal.Laws
import Idealize.ShloMosaic.Lib.ValueIdx

open scoped BigOperators

noncomputable section

namespace Cert.Spec

open Idealize.ShloMosaic Idealize.ShloMosaic.ValueIdx

/-- Entry (k, c) of x·wᵀ: row `k` of `x` against row `c` of `w`. -/
def rowDot (x : (⟨2, ![8192, 128]⟩ : Shape).Idx → EReal) (w : (⟨2, ![128, 128]⟩ : Shape).Idx → EReal)
    (k : Fin 8192) (c : Fin 128) : EReal :=
  ∑ j : Fin 128, x (ix2 k j) * w (ix2 c j)

/-- The layer's entry (r, c): row `r` of the adjacency against column `c` of x·wᵀ, scaled by the row's factor `q r`,
    plus entry (r, c) of x·bᵀ. -/
def layer (a : (⟨2, ![8192, 8192]⟩ : Shape).Idx → EReal) (q : Fin 8192 → EReal)
    (x : (⟨2, ![8192, 128]⟩ : Shape).Idx → EReal) (w b : (⟨2, ![128, 128]⟩ : Shape).Idx → EReal)
    (r : Fin 8192) (c : Fin 128) : EReal :=
  (∑ k : Fin 8192, a (ix2 r k) * rowDot x w k c) * q r + rowDot x b r c

/-- Neighbour `j` of the first half and of the second half of the 8192 neighbours. -/
def lowHalf (j : Fin 4096) : Fin 8192 := ⟨j.val, by have := j.isLt; omega⟩
def highHalf (j : Fin 4096) : Fin 8192 := ⟨4096 + j.val, by have := j.isLt; omega⟩

/-- A sum over the 8192 neighbours is the sum over the first 4096 plus the sum over the last 4096. -/
theorem sum_two_halves {M : Type*} [AddCommMonoid M] (f : Fin 8192 → M) :
    ∑ k : Fin 8192, f k = (∑ j : Fin 4096, f (lowHalf j)) + ∑ j : Fin 4096, f (highHalf j) :=
  Fin.sum_univ_add (a := 4096) (b := 4096) f

/-- Dividing by a nonzero real is multiplying by its reciprocal, and that reciprocal is what `1 / d` is: so the
    reference's quotient by the degree is the kernel's product with the degree's reciprocal, on every extended real. -/
theorem div_eq_mul_one_div (t : EReal) {d : EReal} (hd : ∃ n : ℝ, n ≠ 0 ∧ d = (n : EReal)) :
    Ideal.div t d = t * Ideal.div 1 d := by
  obtain ⟨n, hn, rfl⟩ := hd
  rw [Ideal.div_coe hn, Ideal.div_coe hn, one_mul]

/-- `n` ones added up are the real number `n` (the extended reals are no semiring: by induction, not by `n • 1 = n · 1`). -/
theorem nsmul_one (n : ℕ) : n • (1 : EReal) = ((n : ℝ) : EReal) := by
  induction n with
  | zero => simp
  | succ n ih => rw [succ_nsmul, ih, Nat.cast_succ, EReal.coe_add, EReal.coe_one]

/-- A count of ones — zero plus a sum of ones over a finite set — with zero replaced by one is a nonzero real. -/
theorem count_or_one {ι : Type*} (S : Finset ι) :
    ∃ n : ℝ, n ≠ 0 ∧ (if (0 : EReal) + ∑ _j ∈ S, (1 : EReal) = 0 then (1 : EReal) else (0 : EReal) + ∑ _j ∈ S, (1 : EReal)) = (n : EReal) := by
  have hsum : (0 : EReal) + ∑ _j ∈ S, (1 : EReal) = ((S.card : ℝ) : EReal) := by
    rw [zero_add, Finset.sum_const, nsmul_one]
  rw [hsum]
  by_cases h : S.card = 0
  · refine ⟨1, one_ne_zero, ?_⟩
    rw [h]; simp
  · refine ⟨(S.card : ℝ), by exact_mod_cast h, ?_⟩
    rw [if_neg]
    intro h0
    apply h
    have : ((S.card : ℝ) : EReal) = ((0 : ℝ) : EReal) := by simpa using h0
    exact_mod_cast EReal.coe_injective this

end Cert.Spec

end
-- ==== Proof.Val.XwValue.lean ====
/-
  What region 0 leaves in x·Wᵀ's array, entry by entry.

  Region 0 walks the 8192 rows of x in eight blocks of 1024. At block t it multiplies rows 1024·t … 1024·t + 1023 of x
  by Wᵀ — entry (p, q) of the product block is the sum over the 128 features i of x (1024·t + p, i) · W (q, i) —
  and writes the block back to rows 1024·t … of the output. The eight blocks tile the output, so after the region the
  output's entry (k, j) is row k of x against row j of W: `Cert.Spec.rowDot`.
-/
import proofs.«115460_j79422535238375_1_alg».proof.Proof.KI.Arrays
import proofs.«115460_j79422535238375_1_alg».proof.Proof.Val.Spec
import Idealize.ShloMosaic.Lib.Pipeline.Value
import Idealize.ShloMosaic.Lib.ValueIdx
import Idealize.ShloMosaic.Lib.ValueLayout
import Idealize.ShloMosaic.PureOps.Ideal.Laws
set_option maxRecDepth 16384

open scoped BigOperators

noncomputable section

namespace Cert.Val

open Cert.KernelIdeal Cert.KernelIdeal.Gen Cert.KernelIdeal.Hand
open Idealize.ShloMosaic Idealize.ShloMosaic.ValueIdx Idealize.ShloMosaic.TcCoe

/-! ## The block product at an entry -/

/-- The product's left operand index at output entry `i` and contraction index `q`: row of `i`, -/
theorem xw_lhs_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- column the contraction index; -/
theorem xw_lhs_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- the right operand's: row the contraction index, -/
theorem xw_rhs_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- column of `i`. -/
theorem xw_rhs_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- Region 0's payload at entry (p, q): row `p` of the x block against row `q` of W (the roundings to bf16 are the
    identity on the extended reals, and the transposed W read at (i, q) is W at (q, i)). -/
theorem xw_block_entry (xb : Vec Ideal S1024x128 .f32) (wb : Vec Ideal S128x128 .f32) (p : Fin 1024) (q : Fin 128) :
    k0_pay1 (F := Ideal) xb wb (ix2 p q) = ∑ i : Fin 128, xb (ix2 p i) * wb (ix2 q i) := by
  unfold k0_pay1
  refine (truncf_apply (ψ := .bf16) _ bitsLt_bf16_f32 _).trans ?_
  refine (Ideal.matmul_constant_zero_apply dot_S1024x128_S128x128_S1024x128_1_0_0_1_n_n none _ _ (ix2 p q)).trans ?_
  rw [← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p q) ((ValueIdx.contrEquiv1 dot_S1024x128_S128x128_S1024x128_1_0_0_1_n_n 128 rfl rfl).symm k) = ix2 p k := funext fun a => Fin.ext (by
    match a with
    | ⟨0, _⟩ => exact xw_lhs_0 _ _
    | ⟨1, _⟩ => exact (xw_lhs_1 _ _).trans hk)
  have er : dot_S1024x128_S128x128_S1024x128_1_0_0_1_n_n.rhsIdx (ix2 p q) ((ValueIdx.contrEquiv1 dot_S1024x128_S128x128_S1024x128_1_0_0_1_n_n 128 rfl rfl).symm k) = ix2 k q := funext fun a => Fin.ext (by
    match a with
    | ⟨0, _⟩ => exact (xw_rhs_0 _ _).trans hk
    | ⟨1, _⟩ => exact xw_rhs_1 _ _)
  rw [el, er]
  refine congrArg (xb (ix2 p k) * ·) ?_
  exact transpose_apply [1, 0] _ transposes_S128x128_p1_0_S128x128 (ix2 k q) (ix2 q k) (fun b => match b with
    | ⟨0, _⟩ => rfl
    | ⟨1, _⟩ => rfl)

/-! ## The whole product, and region 0's eight blocks of it -/

variable (m : (ℓ : Loc nD τ sig) → Buf (Elt Ideal) ℓ)

/-- x·Wᵀ whole, from x and W as region 0 finds them: entry `i` is row `i 0` of x against row `i 1` of W. -/
def xwAll (c : Dev nD) : S8192x128.Idx → EReal := fun i =>
  Cert.Spec.rowDot (entry0 m c main_arg0) (entry0 m c main_arg2) (i 0) (i 1)

theorem xwAll_apply (c : Dev nD) (k : Fin 8192) (j : Fin 128) :
    xwAll m c (ix2 k j) = Cert.Spec.rowDot (entry0 m c main_arg0) (entry0 m c main_arg2) k j := rfl

/-- Region 0's block indices over its grid: block `t` of x's rows and of the output's rows, W whole. -/
theorem xw_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block product at (p, q) is the whole product at (r, s) when row `p` of the x block is row `r` of x and row
    `q` of the W block is row `s` of W. -/
theorem xw_block_of_rows (X : S8192x128.Idx → EReal) (W : S128x128.Idx → EReal)
    (xb : Vec Ideal S1024x128 .f32) (wb : Vec Ideal S128x128 .f32) (p : Fin 1024) (q : Fin 128) (r : Fin 8192) (s : Fin 128)
    (hx : ∀ i : Fin 128, xb (ix2 p i) = X (ix2 r i)) (hw : ∀ i : Fin 128, wb (ix2 q i) = W (ix2 s i)) :
    k0_pay1 (F := Ideal) xb wb (ix2 p q) = Cert.Spec.rowDot X W r s := by
  rw [xw_block_entry]
  unfold Cert.Spec.rowDot
  exact Finset.sum_congr rfl fun i _ => by rw [hx i, hw i]

/-- What point `t` of region 0 writes back is block `t` of the whole product: row `p` of the x block is row
    1024·t + `p` of x, the W block is W, and the output block's row `p` is the output's row 1024·t + `p`. -/
theorem xw_flushed (c : Dev nD) (t : Fin cfg0.N) :
    (dat0 (entry0 m) c).flushed 2 t = ((cfg0.win 2).blk t).view.read (Elt Ideal) (xwAll m c) := by
  show (cfg0.win 2).cut (grid0.coords t) ((dat0 (entry0 m) c).after 2 t) = _
  rw [after0_y]
  obtain ⟨e00, e01, e10, e11, e20, e21⟩ := xw_index t
  funext j
  obtain ⟨p, q, rfl⟩ : ∃ (p : Fin 1024) (q : Fin 128), j = ix2 p q := ⟨j 0, j 1, eq_ix2 j⟩
  show k0_pay1 (F := Ideal) (blk0 (entry0 m) c 0 t) (blk0 (entry0 m) c 1 t) (ix2 p q) = xwAll m c (((cfg0.win 2).blk t).view.emb (ix2 p q))
  refine xw_block_of_rows (entry0 m c main_arg0) (entry0 m c main_arg2) _ _ p q _ _ (fun i => ?_) (fun i => ?_)
  · show entry0 m c main_arg0 (((cfg0.win 0).blk t).view.emb (ix2 p i)) = entry0 m c main_arg0 (ix2 ((((cfg0.win 2).blk t).view.emb (ix2 p q)) 0) i)
    refine congrArg (entry0 m c main_arg0) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 128 + 1 * i.val = i.val; omega
  · show entry0 m c main_arg2 (((cfg0.win 1).blk t).view.emb (ix2 q i)) = entry0 m c main_arg2 (ix2 ((((cfg0.win 2).blk t).view.emb (ix2 p q)) 1) i)
    refine congrArg (entry0 m c main_arg2) (funext fun a => Fin.ext ?_)
    match a with
    | ⟨0, _⟩ => show win0_1.index t (0 : Fin 2) * 128 + 1 * q.val = win0_2.index t (1 : Fin 2) * 128 + 1 * q.val; omega
    | ⟨1, _⟩ => show win0_1.index t (1 : Fin 2) * 128 + 1 * i.val = i.val; omega

/-- An entry of the output is in point `t`'s block iff on each axis its coordinate is in the block's range. -/
theorem xw_mem_blk (t : Fin cfg0.N) (i : S8192x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v30).slice (win0_2.rect t)).set ↔ _
  rw [View.set_slice_whole, Rect.mem_set_unit]
  exact Iff.rfl

/-- The eight blocks tile the output: row `r` lies in the block of point `r / 1024`. -/
theorem xw_cover (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have ht : (i 0).val / 1024 < cfg0.N := by show (i 0).val / 1024 < 8; omega
  obtain ⟨-, -, -, -, e20, e21⟩ := xw_index ⟨(i 0).val / 1024, ht⟩
  have e20' : win0_2.index ⟨(i 0).val / 1024, ht⟩ (0 : Fin 2) = (i 0).val / 1024 := e20
  refine ⟨⟨(i 0).val / 1024, ht⟩, flush0_2 _, ?_⟩
  rw [xw_mem_blk]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    omega
  | ⟨1, _⟩ =>
    show win0_2.index ⟨(i 0).val / 1024, ht⟩ (1 : Fin 2) * 128 ≤ (i 1).val
      ∧ (i 1).val < win0_2.index ⟨(i 0).val / 1024, ht⟩ (1 : Fin 2) * 128 + 128
    omega

/-- So region 0 leaves the whole product in its output array. -/
theorem xwArr_eq (c : Dev nD) : xwArr (F := Ideal) m c = xwAll m c :=
  (dat0 (entry0 m) c).arrAt_eq_of_cover 2 (xwAll m c) (fun t _ => xw_flushed m c t) xw_cover

/-- What region 0 leaves in x·Wᵀ's buffer, entry (k, j): row `k` of x (as region 0 found it) against row `j` of W. -/
theorem xw_entry (c : Dev nD) (k : Fin 8192) (j : Fin 128) :
    (xwArr (F := Ideal) m c : S8192x128.Idx → EReal) (ix2 k j)
      = Cert.Spec.rowDot (entry0 m c main_arg0) (entry0 m c main_arg2) k j :=
  (congrFun (xwArr_eq m c) (ix2 k j)).trans (xwAll_apply m c k j)

end Cert.Val

end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.Val.OutValue.lean ====
/-
  What the second kernel region leaves in the output buffer, entry by entry over the extended reals.

  The region walks 8 row blocks × 2 K blocks. At point t = 2·b + κ it holds rows 1024·b … of the adjacency restricted to
  columns 4096·κ …, rows 4096·κ … of x·Wᵀ, rows 1024·b … of x and of the reciprocal-degree column, and all of B. The
  accumulator is reset to zero at κ = 0 and gains, at each κ, the adjacency block times the x·Wᵀ block; so after κ = 1 its
  entry (p, q) is

      0 + ∑ i < 4096, a (r, i) · y (i, q)  +  ∑ i < 4096, a (r, 4096 + i) · y (4096 + i, q)   =   ∑ k < 8192, a (r, k) · y (k, q),

  r = 1024·b + p, the two halves joined by `Cert.Spec.sum_two_halves` (only the commutative monoid of addition is used).
  At κ = 1 the region stores  acc (p, q) · d (r)  +  ∑ i < 128, x (r, i) · B (q, i),  which is the layer's entry (r, q), and
  writes the row block back. The eight written blocks tile the 8192 rows, so the array ends holding the layer everywhere
  (`out_entry`). That x·Wᵀ's buffer holds the row products of x and W is taken as a hypothesis here.

  The steps: the three stored values read at an entry (`k1_pay1_at`, `k1_pay2_at`, `k1_pay3_at`: a product into the zero
  accumulator is the sum over the contracted axis, a transposed block reads the block at the swapped entry, the column of
  reciprocal degrees is repeated along the row); each block read where its array coordinates say (`adj_block_at` …);
  the accumulator and the stored block at an odd point (`acc_odd_at`, `out_odd_at`); the written blocks as blocks of one
  whole array and their cover of it (`flushed_out`, `out_cover`, `outArr_eq`).
-/
import proofs.«115460_j79422535238375_1_alg».proof.Proof.KI.Arrays
import proofs.«115460_j79422535238375_1_alg».proof.Proof.Val.Spec
import proofs.«115460_j79422535238375_1_alg».proof.Proof.LibKeepdims
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

open scoped BigOperators

noncomputable section

namespace Cert.Val

open Cert.KernelIdeal Cert.KernelIdeal.Gen Cert.KernelIdeal.Hand
open Idealize.ShloMosaic Idealize.ShloMosaic.ValueIdx Idealize.ShloMosaic.TcCoe
open Idealize.ShloMosaic.Pipeline (Dat Cfg Window)

namespace Out

/-! ## The three payloads at an entry -/

/-- The accumulator's reset value is zero everywhere. -/
theorem k1_pay1_at (p : Fin 1024) (q : Fin 128) : (k1_pay1 (F := Ideal) : S1024x128.Idx → EReal) (ix2 p q) = 0 := by
  unfold k1_pay1
  rw [shapeCast_self]
  show Ideal.ofBits .f32 0x00000000#32 = 0
  exact Ideal.ofBits_zero_f32

/-! The adjacency block times the x·Wᵀ block: the operand indices of the [1024,4096] × [4096,128] product, axis by axis. -/

private theorem lhs_adj_0 (i : S1024x128.Idx) (q : dot_S1024x4096_S4096x128_S1024x128_1_0_0_1_n_n.contr.Idx) :
    (dot_S1024x4096_S4096x128_S1024x128_1_0_0_1_n_n.lhsIdx i q 0).val = (i 0).val := by
  unfold DotDims.lhsIdx
  rw [dif_neg (show ¬(0 : Fin S1024x4096.rank) ∈ dot_S1024x4096_S4096x128_S1024x128_1_0_0_1_n_n.lhsBatch by decide), dif_pos (show (0 : Fin S1024x4096.rank) ∈ dot_S1024x4096_S4096x128_S1024x128_1_0_0_1_n_n.lhsNonContracting by decide)]
  rfl
private theorem lhs_adj_1 (i : S1024x128.Idx) (q : dot_S1024x4096_S4096x128_S1024x128_1_0_0_1_n_n.contr.Idx) :
    (dot_S1024x4096_S4096x128_S1024x128_1_0_0_1_n_n.lhsIdx i q 1).val = (q ⟨0, by decide⟩).val :=
  dot_S1024x4096_S4096x128_S1024x128_1_0_0_1_n_n.lhsIdx_val_of_single rfl i q
private theorem rhs_adj_0 (i : S1024x128.Idx) (q : dot_S1024x4096_S4096x128_S1024x128_1_0_0_1_n_n.contr.Idx) :
    (dot_S1024x4096_S4096x128_S1024x128_1_0_0_1_n_n.rhsIdx i q 0).val = (q ⟨0, by decide⟩).val :=
  dot_S1024x4096_S4096x128_S1024x128_1_0_0_1_n_n.rhsIdx_val_of_single rfl i q
private theorem rhs_adj_1 (i : S1024x128.Idx) (q : dot_S1024x4096_S4096x128_S1024x128_1_0_0_1_n_n.contr.Idx) :
    (dot_S1024x4096_S4096x128_S1024x128_1_0_0_1_n_n.rhsIdx i q 1).val = (i 1).val := by
  unfold DotDims.rhsIdx
  rw [dif_neg (show ¬(1 : Fin S4096x128.rank) ∈ dot_S1024x4096_S4096x128_S1024x128_1_0_0_1_n_n.rhsBatch by decide), dif_pos (show (1 : Fin S4096x128.rank) ∈ dot_S1024x4096_S4096x128_S1024x128_1_0_0_1_n_n.rhsNonContracting by decide)]
  rfl

/-- The [1024,4096] × [4096,128] product into the zero accumulator, at entry (p, q): row p against column q. -/
theorem adj_product_at (a : FVec Ideal S1024x4096 .bf16) (y : FVec Ideal S4096x128 .bf16) (p : Fin 1024) (q : Fin 128) :
    (matmul dot_S1024x4096_S4096x128_S1024x128_1_0_0_1_n_n none a y (constant S1024x128 .f32 0x00000000#32) : S1024x128.Idx → EReal) (ix2 p q)
      = ∑ i : Fin 4096, a (ix2 p i) * y (ix2 i q) := by
  simp only [matmul]
  rw [Ideal.matmul_constant_zero_apply, ← Equiv.sum_comp (ValueIdx.contrEquiv1 dot_S1024x4096_S4096x128_S1024x128_1_0_0_1_n_n 4096 rfl rfl).symm]
  refine Finset.sum_congr rfl fun k _ => ?_
  have hk := ValueIdx.contrEquiv1_symm_val dot_S1024x4096_S4096x128_S1024x128_1_0_0_1_n_n 4096 rfl rfl k
  have el : dot_S1024x4096_S4096x128_S1024x128_1_0_0_1_n_n.lhsIdx (ix2 p q) ((ValueIdx.contrEquiv1 dot_S1024x4096_S4096x128_S1024x128_1_0_0_1_n_n 4096 rfl rfl).symm k) = ix2 p k := funext fun ax => Fin.ext (by
    match ax with
    | ⟨0, _⟩ => exact lhs_adj_0 _ _
    | ⟨1, _⟩ => exact (lhs_adj_1 _ _).trans hk)
  have er : dot_S1024x4096_S4096x128_S1024x128_1_0_0_1_n_n.rhsIdx (ix2 p q) ((ValueIdx.contrEquiv1 dot_S1024x4096_S4096x128_S1024x128_1_0_0_1_n_n 4096 rfl rfl).symm k) = ix2 k q := funext fun ax => Fin.ext (by
    match ax with
    | ⟨0, _⟩ => exact (rhs_adj_0 _ _).trans hk
    | ⟨1, _⟩ => exact rhs_adj_1 _ _)
  rw [el, er]

/-- One K block's step: what the accumulator held plus the adjacency block's row against the x·Wᵀ block's column. -/
theorem k1_pay2_at (s : Vec Ideal S1024x128 .f32) (a : Vec Ideal S1024x4096 .bf16) (y : Vec Ideal S4096x128 .bf16)
    (p : Fin 1024) (q : Fin 128) :
    (k1_pay2 s a y : S1024x128.Idx → EReal) (ix2 p q) = s (ix2 p q) + ∑ i : Fin 4096, a (ix2 p i) * y (ix2 i q) := by
  unfold k1_pay2
  rw [shapeCast_self, shapeCast_self, shapeCast_self, addf_apply, adj_product_at]

/-! The x block times Bᵀ: the operand indices of the [1024,128] × [128,128] product, axis by axis. -/

private theorem lhs_xb_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
private theorem lhs_xb_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
private theorem rhs_xb_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
private theorem rhs_xb_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The [1024,128] × [128,128] product into the zero accumulator, at entry (p, q): row p against column q. -/
theorem xb_product_at (x : FVec Ideal S1024x128 .bf16) (bt : FVec Ideal S128x128 .bf16) (p : Fin 1024) (q : Fin 128) :
    (matmul dot_S1024x128_S128x128_S1024x128_1_0_0_1_n_n none x bt (constant S1024x128 .f32 0x00000000#32) : S1024x128.Idx → EReal) (ix2 p q)
      = ∑ i : Fin 128, x (ix2 p i) * bt (ix2 i q) := by
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p q) ((ValueIdx.contrEquiv1 dot_S1024x128_S128x128_S1024x128_1_0_0_1_n_n 128 rfl rfl).symm k) = ix2 p k := funext fun ax => Fin.ext (by
    match ax with
    | ⟨0, _⟩ => exact lhs_xb_0 _ _
    | ⟨1, _⟩ => exact (lhs_xb_1 _ _).trans hk)
  have er : dot_S1024x128_S128x128_S1024x128_1_0_0_1_n_n.rhsIdx (ix2 p q) ((ValueIdx.contrEquiv1 dot_S1024x128_S128x128_S1024x128_1_0_0_1_n_n 128 rfl rfl).symm k) = ix2 k q := funext fun ax => Fin.ext (by
    match ax with
    | ⟨0, _⟩ => exact (rhs_xb_0 _ _).trans hk
    | ⟨1, _⟩ => exact rhs_xb_1 _ _)
  rw [el, er]

/-- The transposed weight block at (i, q) is the weight block at (q, i). -/
theorem transposed_at (b : FVec Ideal S128x128 .bf16) (i q : Fin 128) :
    (transpose S128x128 [1, 0] b transposes_S128x128_p1_0_S128x128 : S128x128.Idx → EReal) (ix2 i q) = b (ix2 q i) :=
  transpose_apply [1, 0] b transposes_S128x128_p1_0_S128x128 (ix2 i q) (ix2 q i) (fun ax => match ax with
    | ⟨0, _⟩ => rfl
    | ⟨1, _⟩ => rfl)

/-- The last K block's store: the accumulator scaled by the row's factor, plus row p of the x block against row q of B. -/
theorem k1_pay3_at (x : Vec Ideal S1024x128 .f32) (b : Vec Ideal S128x128 .f32) (s : Vec Ideal S1024x128 .f32)
    (d : Vec Ideal S1024x1 .f32) (p : Fin 1024) (q : Fin 128) :
    (k1_pay3 x b s d : S1024x128.Idx → EReal) (ix2 p q)
      = s (ix2 p q) * d (ix2 p (0 : Fin 1)) + ∑ i : Fin 128, x (ix2 p i) * b (ix2 q i) := by
  unfold k1_pay3
  rw [shapeCast_self, shapeCast_self, addf_apply, mulf_apply, xb_product_at, ValueIdx.broadcastTo_a1_ab_apply]
  refine congrArg (s (ix2 p q) * d (ix2 p (0 : Fin 1)) + ·) (Finset.sum_congr rfl fun i _ => ?_)
  rw [transposed_at]
  rfl

/-! ## Region 1's blocks, read where their array coordinates say -/

/-- Region 1's index maps over its sixteen points: point t is row block t / 2, K block t % 2. -/
theorem index_maps1 : ∀ t : Fin cfg1.N,
    win1_0.index t (0 : Fin 2) = t.val / 2 ∧ win1_0.index t (1 : Fin 2) = t.val % 2
    ∧ win1_1.index t (0 : Fin 2) = t.val % 2 ∧ win1_1.index t (1 : Fin 2) = 0
    ∧ win1_2.index t (0 : Fin 2) = t.val / 2 ∧ win1_2.index t (1 : Fin 2) = 0
    ∧ win1_3.index t (0 : Fin 2) = 0 ∧ win1_3.index t (1 : Fin 2) = 0
    ∧ win1_4.index t (0 : Fin 2) = t.val / 2 ∧ win1_4.index t (1 : Fin 2) = 0
    ∧ win1_5.index t (0 : Fin 2) = t.val / 2 ∧ win1_5.index t (1 : Fin 2) = 0 :=
  (by decide +kernel : ∀ t : Fin grid1.N, _)

section Blocks

variable (V : (c : Dev nD) → (b : Ref sig .tc) → Buf (Elt Ideal) ((c : Thread nD τ).loc b))

/-- The adjacency's block at point t: rows 1024·(t/2) …, columns 4096·(t%2) …. -/
theorem adj_block_at (c : Dev nD) (t : Fin cfg1.N) (p : Fin 1024) (i : Fin 4096) (r k : Fin 8192)
    (hr : r.val = 1024 * (t.val / 2) + p.val) (hk : k.val = 4096 * (t.val % 2) + i.val) :
    (blk1 V c 0 t : S1024x4096.Idx → EReal) (ix2 p i) = (V c main_v19 : S8192x8192.Idx → EReal) (ix2 r k) := by
  obtain ⟨e0, e1, -⟩ := index_maps1 t
  unfold blk1
  rw [View.read_apply]
  show (V c main_v19 : S8192x8192.Idx → EReal) _ = _
  congr 1
  funext a
  apply Fin.ext
  match a with
  | ⟨0, _⟩ => show win1_0.index t 0 * 1024 + 1 * p.val = r.val; rw [e0, hr]; omega
  | ⟨1, _⟩ => show win1_0.index t 1 * 4096 + 1 * i.val = k.val; rw [e1, hk]; omega

/-- The x·Wᵀ block at point t: rows 4096·(t%2) …. -/
theorem xw_block_at (c : Dev nD) (t : Fin cfg1.N) (i : Fin 4096) (q : Fin 128) (k : Fin 8192)
    (hk : k.val = 4096 * (t.val % 2) + i.val) :
    (blk1 V c 1 t : S4096x128.Idx → EReal) (ix2 i q) = (V c main_v30 : S8192x128.Idx → EReal) (ix2 k q) := by
  obtain ⟨-, -, e0, e1, -⟩ := index_maps1 t
  unfold blk1
  rw [View.read_apply]
  show (V c main_v30 : S8192x128.Idx → EReal) _ = _
  congr 1
  funext a
  apply Fin.ext
  match a with
  | ⟨0, _⟩ => show win1_1.index t 0 * 4096 + 1 * i.val = k.val; rw [e0, hk]; omega
  | ⟨1, _⟩ => show win1_1.index t 1 * 128 + 1 * q.val = q.val; rw [e1]; omega

/-- The x block at point t: rows 1024·(t/2) …. -/
theorem x_block_at (c : Dev nD) (t : Fin cfg1.N) (p : Fin 1024) (i : Fin 128) (r : Fin 8192)
    (hr : r.val = 1024 * (t.val / 2) + p.val) :
    (blk1 V c 2 t : S1024x128.Idx → EReal) (ix2 p i) = (V c main_arg0 : S8192x128.Idx → EReal) (ix2 r i) := by
  obtain ⟨-, -, -, -, e0, e1, -⟩ := index_maps1 t
  unfold blk1
  rw [View.read_apply]
  show (V c main_arg0 : S8192x128.Idx → EReal) _ = _
  congr 1
  funext a
  apply Fin.ext
  match a with
  | ⟨0, _⟩ => show win1_2.index t 0 * 1024 + 1 * p.val = r.val; rw [e0, hr]; omega
  | ⟨1, _⟩ => show win1_2.index t 1 * 128 + 1 * i.val = i.val; rw [e1]; omega

/-- B's block at any point: all of B. -/
theorem b_block_at (c : Dev nD) (t : Fin cfg1.N) (q i : Fin 128) :
    (blk1 V c 3 t : S128x128.Idx → EReal) (ix2 q i) = (V c main_arg3 : S128x128.Idx → EReal) (ix2 q i) := by
  obtain ⟨-, -, -, -, -, -, e0, e1, -⟩ := index_maps1 t
  unfold blk1
  rw [View.read_apply]
  show (V c main_arg3 : S128x128.Idx → EReal) _ = _
  congr 1
  funext a
  apply Fin.ext
  match a with
  | ⟨0, _⟩ => show win1_3.index t 0 * 128 + 1 * q.val = q.val; rw [e0]; omega
  | ⟨1, _⟩ => show win1_3.index t 1 * 128 + 1 * i.val = i.val; rw [e1]; omega

/-- The reciprocal-degree column's block at point t: rows 1024·(t/2) …. -/
theorem deg_block_at (c : Dev nD) (t : Fin cfg1.N) (p : Fin 1024) (r : Fin 8192)
    (hr : r.val = 1024 * (t.val / 2) + p.val) :
    (blk1 V c 4 t : S1024x1.Idx → EReal) (ix2 p (0 : Fin 1)) = (V c main_v29 : S8192x1.Idx → EReal) (ix2 r (0 : Fin 1)) := by
  obtain ⟨-, -, -, -, -, -, -, -, e0, e1, -⟩ := index_maps1 t
  unfold blk1
  rw [View.read_apply]
  show (V c main_v29 : S8192x1.Idx → EReal) _ = _
  congr 1
  funext a
  apply Fin.ext
  match a with
  | ⟨0, _⟩ => show win1_4.index t 0 * 1024 + 1 * p.val = r.val; rw [e0, hr]; omega
  | ⟨1, _⟩ => show win1_4.index t 1 * 1 + 1 * 0 = 0; rw [e1]

end Blocks

/-! ## The accumulator and the output block at an odd point, in closed form -/

section Closed

variable (m : (ℓ : Loc nD τ sig) → Buf (Elt Ideal) ℓ) (c : Dev nD)

/-- The arrays region 0 found, as functions of their indices: the adjacency, -/
abbrev adjOf : S8192x8192.Idx → EReal := entry0 m c main_v19
/-- the reciprocal degree of each row, -/
abbrev degOf : Fin 8192 → EReal := fun r' => (entry0 m c main_v29 : S8192x1.Idx → EReal) (ix2 r' (0 : Fin 1))
/-- the features x, -/
abbrev xOf : S8192x128.Idx → EReal := entry0 m c main_arg0
/-- and the two weight matrices W and B. -/
abbrev wOf : S128x128.Idx → EReal := entry0 m c main_arg2
abbrev bOf : S128x128.Idx → EReal := entry0 m c main_arg3

/-- The layer's entry (r, j) from those arrays. -/
def layerOf (r : Fin 8192) (j : Fin 128) : EReal :=
  Cert.Spec.layer (adjOf m c) (degOf m c) (xOf m c) (wOf m c) (bOf m c) r j

variable (hxw : ∀ (k : Fin 8192) (j : Fin 128), (xwArr (F := Ideal) m c : S8192x128.Idx → EReal) (ix2 k j)
  = Cert.Spec.rowDot (entry0 m c main_arg0) (entry0 m c main_arg2) k j)

include hxw in
/-- One K block's product at entry (p, q) of point t's row block: row r of the adjacency against column q of x·Wᵀ over
    that K block's 4096 neighbours, `half` naming them among the 8192. -/
theorem kblock_product_at (t : Fin cfg1.N) (p : Fin 1024) (q : Fin 128) (r : Fin 8192)
    (hr : r.val = 1024 * (t.val / 2) + p.val) (half : Fin 4096 → Fin 8192)
    (hhalf : ∀ i, (half i).val = 4096 * (t.val % 2) + i.val)
    (a : S1024x4096.Idx → EReal) (y : S4096x128.Idx → EReal)
    (ha : a = blk1 (entry1 m) c 0 t) (hy : y = blk1 (entry1 m) c 1 t) :
    ∑ i : Fin 4096, a (ix2 p i) * y (ix2 i q)
      = ∑ i : Fin 4096, adjOf m c (ix2 r (half i)) * Cert.Spec.rowDot (xOf m c) (wOf m c) (half i) q := by
  subst ha hy
  exact Finset.sum_congr rfl fun i _ => congrArg₂ (fun u v : EReal => u * v)
    ((adj_block_at (entry1 m) c t p i r (half i) hr (hhalf i)).trans
      (congrArg (fun f : S8192x8192.Idx → EReal => f (ix2 r (half i))) (entry1_other m c main_v19 (by decide))))
    ((xw_block_at (entry1 m) c t i q (half i) (hhalf i)).trans
      ((congrArg (fun f : S8192x128.Idx → EReal => f (ix2 (half i) q)) (entry1_xw m c)).trans (hxw (half i) q)))

include hxw in
/-- After an odd point the accumulator holds, at entry (p, q), row r of the adjacency against column q of x·Wᵀ over all
    8192 neighbours: zero plus the first K block's half, which the point before left, plus the second's. -/
theorem acc_odd_at (t : Fin cfg1.N) (ht : t.val % 2 = 1) (p : Fin 1024) (q : Fin 128) (r : Fin 8192)
    (hr : r.val = 1024 * (t.val / 2) + p.val) :
    (accAfter (entry1 m) c t : S1024x128.Idx → EReal) (ix2 p q)
      = ∑ k : Fin 8192, adjOf m c (ix2 r k) * Cert.Spec.rowDot (xOf m c) (wOf m c) k q := by
  have hp : (prevPt t).val = t.val - 1 := rfl
  refine (congrArg (fun f : S1024x128.Idx → EReal => f (ix2 p q)) (accAfter_odd (entry1 m) c t ht)).trans ?_
  refine (k1_pay2_at _ _ _ p q).trans ?_
  rw [Cert.Spec.sum_two_halves]
  refine congrArg₂ (fun u v : EReal => u + v) ?_ ?_
  · unfold acc1
    refine (k1_pay2_at _ _ _ p q).trans ?_
    rw [k1_pay1_at, zero_add]
    exact kblock_product_at m c hxw (prevPt t) p q r (by rw [hp, hr]; omega) Cert.Spec.lowHalf
      (fun i => by show i.val = 4096 * ((prevPt t).val % 2) + i.val; rw [hp]; omega) _ _ rfl rfl
  · exact kblock_product_at m c hxw t p q r hr Cert.Spec.highHalf
      (fun i => by show 4096 + i.val = 4096 * (t.val % 2) + i.val; omega) _ _ rfl rfl

include hxw in
/-- At an odd point the output block is the layer's entries of that row block. -/
theorem out_odd_at (t : Fin cfg1.N) (ht : t.val % 2 = 1) (p : Fin 1024) (q : Fin 128) (r : Fin 8192)
    (hr : r.val = 1024 * (t.val / 2) + p.val) :
    (outAfter (entry1 m) c t : S1024x128.Idx → EReal) (ix2 p q) = layerOf m c r q := by
  unfold outAfter
  refine (k1_pay3_at _ _ _ _ p q).trans ?_
  show _ = (∑ k : Fin 8192, adjOf m c (ix2 r k) * Cert.Spec.rowDot (xOf m c) (wOf m c) k q) * degOf m c r
    + ∑ i : Fin 128, xOf m c (ix2 r i) * bOf m c (ix2 q i)
  refine congrArg₂ (fun u v : EReal => u + v) (congrArg₂ (fun u v : EReal => u * v) (acc_odd_at m c hxw t ht p q r hr) ?_)
    (Finset.sum_congr rfl fun i _ => congrArg₂ (fun u v : EReal => u * v) ?_ ?_)
  · exact (deg_block_at (entry1 m) c t p r hr).trans
      (congrArg (fun f : S8192x1.Idx → EReal => f (ix2 r (0 : Fin 1))) (entry1_other m c main_v29 (by decide)))
  · exact (x_block_at (entry1 m) c t p i r hr).trans
      (congrArg (fun f : S8192x128.Idx → EReal => f (ix2 r i)) (entry1_other m c main_arg0 (by decide)))
  · exact (b_block_at (entry1 m) c t q i).trans
      (congrArg (fun f : S128x128.Idx → EReal => f (ix2 q i)) (entry1_other m c main_arg3 (by decide)))

/-! ## The output array after the run -/

/-- The whole output array region 1 leaves: the layer, entry by entry. -/
def outG : S8192x128.Idx → EReal := fun i => layerOf m c (i 0) (i 1)

include hxw in
/-- What an odd point writes back is its row block of the layer. -/
theorem flushed_out (t : Fin cfg1.N) (hf : (cfg1.win 5).flush t = true) :
    (dat1 (entry1 m) c).flushed 5 t = ((cfg1.win 5).blk t).view.read (Elt Ideal) (outG m c) := by
  have ht : t.val % 2 = 1 := (flush1_5 t).mp hf
  have hN : grid1.N = 16 := N_1
  have htl : t.val < 16 := hN ▸ t.isLt
  obtain ⟨-, -, -, -, -, -, -, -, -, -, e0, e1⟩ := index_maps1 t
  show (cfg1.win 5).cut (grid1.coords t) ((dat1 (entry1 m) c).after 5 t) = _
  rw [after1_o]
  funext j
  obtain ⟨p, q, rfl⟩ : ∃ (p : Fin 1024) (q : Fin 128), j = ix2 p q := ⟨j 0, j 1, eq_ix2 j⟩
  have hr : 1024 * (t.val / 2) + p.val < 8192 := by omega
  show (outAfter (entry1 m) c t : S1024x128.Idx → EReal) (ix2 p q) = outG m c (((cfg1.win 5).blk t).view.emb (ix2 p q))
  refine (out_odd_at m c hxw t ht p q ⟨_, hr⟩ rfl).trans ?_
  unfold outG
  refine congrArg₂ (layerOf m c) (Fin.ext ?_) (Fin.ext ?_)
  · show 1024 * (t.val / 2) + p.val = win1_5.index t 0 * 1024 + 1 * p.val
    rw [e0]; omega
  · show q.val = win1_5.index t 1 * 128 + 1 * q.val
    rw [e1]; omega

/-- An entry of the output array is in point t's block iff each coordinate is in the block's range on its axis. -/
theorem mem_out_block (t : Fin cfg1.N) (i : S8192x128.Idx) :
    i ∈ ((cfg1.win 5).blk t).view.set
      ↔ ∀ a : Fin 2, win1_5.index t a * S1024x128.size a ≤ (i a).val ∧ (i a).val < win1_5.index t a * S1024x128.size a + S1024x128.size a := by
  show i ∈ ((View.whole main_v31).slice (win1_5.rect t)).set ↔ _
  rw [View.set_slice_whole, Rect.mem_set_unit]
  exact Iff.rfl

/-- Row r of the output array is in the block the odd point 2·(r / 1024) + 1 writes back. -/
theorem out_cover (i : S8192x128.Idx) :
    ∃ t : Fin cfg1.N, (cfg1.win 5).flush t = true ∧ i ∈ ((cfg1.win 5).blk t).view.set := by
  have hN : grid1.N = 16 := N_1
  have h0 : (i 0).val < 8192 := (i 0).isLt
  have h1 : (i 1).val < 128 := (i 1).isLt
  have hlt : 2 * ((i 0).val / 1024) + 1 < cfg1.N := by show _ < grid1.N; rw [hN]; omega
  obtain ⟨-, -, -, -, -, -, -, -, -, -, e0, e1⟩ := index_maps1 ⟨2 * ((i 0).val / 1024) + 1, hlt⟩
  have e0' : win1_5.index ⟨2 * ((i 0).val / 1024) + 1, hlt⟩ (0 : Fin 2) = (i 0).val / 1024 := by
    rw [e0]; show (2 * ((i 0).val / 1024) + 1) / 2 = _; omega
  refine ⟨⟨2 * ((i 0).val / 1024) + 1, hlt⟩, (flush1_5 _).mpr (by show (2 * ((i 0).val / 1024) + 1) % 2 = 1; omega), ?_⟩
  rw [mem_out_block]
  intro a
  match a with
  | ⟨0, _⟩ =>
    show win1_5.index ⟨2 * ((i 0).val / 1024) + 1, hlt⟩ (0 : Fin 2) * 1024 ≤ (i 0).val
      ∧ (i 0).val < win1_5.index ⟨2 * ((i 0).val / 1024) + 1, hlt⟩ (0 : Fin 2) * 1024 + 1024
    rw [e0']; omega
  | ⟨1, _⟩ =>
    show win1_5.index ⟨2 * ((i 0).val / 1024) + 1, hlt⟩ (1 : Fin 2) * 128 ≤ (i 1).val
      ∧ (i 1).val < win1_5.index ⟨2 * ((i 0).val / 1024) + 1, hlt⟩ (1 : Fin 2) * 128 + 128
    rw [e1]; omega

include hxw in
/-- Region 1 leaves the layer in the output buffer. -/
theorem outArr_eq : (outArr (F := Ideal) m c : S8192x128.Idx → EReal) = outG m c := by
  unfold outArr
  exact (dat1 (entry1 m) c).arrAt_eq_of_cover 5 (outG m c) (flushed_out m c hxw) (out_cover)

end Closed

end Out

/-- What region 1 leaves in the output buffer, entry (r, j): the layer's entry, with the adjacency, the reciprocal-degree
    column, x, W and B as region 0 found them. -/
theorem out_entry (m : (ℓ : Loc nD τ sig) → Buf (Elt Ideal) ℓ) (c : Dev nD)
    (hxw : ∀ (k : Fin 8192) (j : Fin 128), (xwArr (F := Ideal) m c : S8192x128.Idx → EReal) (ix2 k j)
      = Cert.Spec.rowDot (entry0 m c main_arg0) (entry0 m c main_arg2) k j)
    (r : Fin 8192) (j : Fin 128) :
    (outArr (F := Ideal) m c : S8192x128.Idx → EReal) (ix2 r j)
      = Cert.Spec.layer (entry0 m c main_v19) (fun r' => (entry0 m c main_v29 : S8192x1.Idx → EReal) (ix2 r' (0 : Fin 1)))
          (entry0 m c main_arg0) (entry0 m c main_arg2) (entry0 m c main_arg3) r j :=
  (congrArg (fun f : S8192x128.Idx → EReal => f (ix2 r j)) (Out.outArr_eq m c hxw)).trans
    (show Out.layerOf m c r j = _ from by unfold Out.layerOf; rfl)

end Cert.Val

end
-- ==== Proof.Val.HostArrays.lean ====
/-
  The arrays the host code hands the first kernel region, read against the reference's arrays of the same edge list.

  Before its two kernel regions the program runs the reference's own index arithmetic on the edge list `e`: the two
  rows of `e` (sources and destinations), negative entries wrapped by 8192, ones scattered into a zero 8192×8192
  matrix at (destination, source) — the adjacency —, ones scatter-added into a zero vector at the destinations — the
  in-degree —, and a zero degree replaced by one.

  The kernel writes the adjacency from the bf16 patterns of 0 and 1 where the reference writes it from the f32
  patterns. Over the extended reals both pairs denote 0 and 1 (`zero_scalar_eq`, `one_scalar_eq`), an array of either
  float format is an array of extended reals, and a scatter that overwrites is the same function at every element
  type: the two adjacencies are one array (`adjacency_eq`). The in-degree and its correction are built from the f32
  patterns on both sides: one term (`corrected_degree_eq`). The kernel alone then takes 1 / deg' entry by entry and
  casts the vector to a column, so the column's entry (r, 0) is `Ideal.div 1 (deg' r)` (`degree_inv_eq`).

  No host operation writes an argument: the features and the two weight matrices reach the first region as launched
  (`features_kept`, `weights_kept`, `bias_weights_kept`).
-/
import proofs.«115460_j79422535238375_1_alg».proof.Proof.Gen.KernelIdeal.Regions
import proofs.«115460_j79422535238375_1_alg».proof.Proof.RefReadP
import proofs.«115460_j79422535238375_1_alg».proof.Proof.LibKeepdims
import Idealize.ShloMosaic.Lib.StableHlo.Run
import Idealize.ShloMosaic.PureOps.Ideal.Laws
import Idealize.ShloMosaic.Lib.ValueIdx
import Idealize.ShloMosaic.Lib.Pipeline.Value

noncomputable section

namespace Cert.Val

open Cert.KernelIdeal Cert.KernelIdeal.Gen
open Idealize.ShloMosaic Idealize.ShloMosaic.TcCoe Idealize.SL.Sem

/-! ## The patterns of zero and one -/

/-- The bf16 pattern of all zero bits is the extended real 0: a zero exponent and a zero significand. -/
theorem bf16_zero : Ideal.ofBits .bf16 0x0000#16 = 0 := by simp [Ideal.ofBits, Ideal.ieee]

/-- The bf16 pattern `0x3F80` is 1: exponent 127 (the bias) and a zero fraction, (2⁷ + 0) · 2^(127 − 127 − 7). -/
theorem bf16_one : Ideal.ofBits .bf16 0x3F80#16 = 1 := by
  simp [Ideal.ofBits, Ideal.ieee]
  exact_mod_cast (by norm_num : (128 : ℝ) * ((2 : ℝ) ^ 7)⁻¹ = 1)

/-- The f32 pattern `0x3F800000` is 1: exponent 127 (the bias) and a zero fraction, (2²³ + 0) · 2^(127 − 127 − 23). -/
theorem f32_one : Ideal.ofBits .f32 0x3F800000#32 = 1 := by
  simp [Ideal.ofBits, Ideal.ieee]
  exact_mod_cast (by norm_num : (8388608 : ℝ) * ((2 : ℝ) ^ 23)⁻¹ = 1)

/-- The scalar zero of the kernel's adjacency (bf16) is the scalar zero of the reference's (f32): both are 0. -/
theorem zero_scalar_eq :
    (constant (F := Ideal) S_ .bf16 0x0000#16 : S_.Idx → EReal) = constant (F := Ideal) S_ .f32 0x00000000#32 := by
  funext i
  show Ideal.ofBits .bf16 0x0000#16 = Ideal.ofBits .f32 0x00000000#32
  rw [bf16_zero, Ideal.ofBits_zero_f32]

/-- The scalar one the kernel scatters (bf16) is the scalar one the reference scatters (f32): both are 1. -/
theorem one_scalar_eq :
    (constant (F := Ideal) S_ .bf16 0x3F80#16 : S_.Idx → EReal) = constant (F := Ideal) S_ .f32 0x3F800000#32 := by
  funext i
  show Ideal.ofBits .bf16 0x3F80#16 = Ideal.ofBits .f32 0x3F800000#32
  rw [bf16_one, f32_one]

variable (m : (ℓ : Loc nD τ sig) → Buf (Elt Ideal) ℓ)

/-! ## The adjacency -/

/-- The adjacency the first region's entry contents hold is the reference's adjacency of the same edge list: the
    same wrapped (destination, source) pairs scattered into the same zero matrix, the scattered value 1 and the
    background 0 written in bf16 on one side and in f32 on the other. -/
theorem adjacency_eq (c : Dev nD) :
    (V3 (F := Ideal) m c main_v19 : S8192x8192.Idx → EReal)
      = Cert.ReferenceIdeal.ReadP.val_main_v19 (F := Ideal) (m ((c : Thread nD τ).loc main_arg1)) := by
  rw [V3_of m c main_v19 (by decide), V2_of m c main_v19 (by decide)]
  show (StableHlo.after hostOps0 (V0 m c) (Proc.devRef .tc main_v19) : S8192x8192.Idx → EReal) = _
  after_results_simp
  rw [zero_scalar_eq, one_scalar_eq]
  rfl

/-! ## The reciprocal degrees -/

/-- The in-degree with zero replaced by one, as the second host stretch leaves it, is the reference's: ones
    scatter-added at the destinations into zeros, compared with zero, and one selected where the count is zero — the
    same f32 patterns on both sides. -/
theorem corrected_degree_eq (c : Dev nD) :
    (V2 (F := Ideal) m c main_v26 : S8192.Idx → EReal)
      = Cert.ReferenceIdeal.ReadP.val_main_v26 (F := Ideal) (m ((c : Thread nD τ).loc main_arg1)) := by
  show (StableHlo.after hostOps0_1 (StableHlo.after hostOps0 (V0 m c)) (Proc.devRef .tc main_v26) : S8192.Idx → EReal) = _
  after_results_simp
  simp only [StableHlo.TRef.ofBuf, StableHlo.TRef.toBuf, cast_eq]
  rfl

/-- The last host stretch over any contents `W`: it divides the constant 1 by the corrected degree entry by entry
    and casts the vector to a column, so the column at (r, 0) is 1 over the corrected degree at r. -/
theorem recip_column_read (W : Valuation τ sig (Elt Ideal)) (r : Fin 8192) :
    (StableHlo.after (hostOps0_2 (F := Ideal)) W (Proc.devRef .tc main_v29) : S8192x1.Idx → EReal) (ValueIdx.ix2 r (0 : Fin 1))
      = Ideal.div 1 ((W (Proc.devRef .tc main_v26) : S8192.Idx → EReal) (ValueIdx.ix1 r)) := by
  after_results_simp
  refine (ValueIdx.shapeCast_a_a1_apply _ _ r 0).trans ?_
  show Ideal.div (Ideal.ofBits .f32 0x3F800000#32) _ = _
  rw [f32_one]

/-- The column of reciprocal degrees, at row r: one over the reference's corrected degree of node r. -/
theorem degree_inv_eq (c : Dev nD) (r : Fin 8192) :
    (V3 (F := Ideal) m c main_v29 : S8192x1.Idx → EReal) (ValueIdx.ix2 r (0 : Fin 1))
      = Ideal.div 1 (Cert.ReferenceIdeal.ReadP.val_main_v26 (F := Ideal) (m ((c : Thread nD τ).loc main_arg1)) (ValueIdx.ix1 r)) := by
  refine (recip_column_read (V2 m c) r).trans ?_
  rw [corrected_degree_eq m c]

/-! ## The arguments -/

/-- The features reach the first region as launched. -/
theorem features_kept (c : Dev nD) : V3 (F := Ideal) m c main_arg0 = m ((c : Thread nD τ).loc main_arg0) :=
  (V3_of m c main_arg0 (by decide)).trans <| (V2_of m c main_arg0 (by decide)).trans <| (V1_of m c main_arg0 (by decide)).trans rfl

/-- The weights of the neighbour term reach the first region as launched. -/
theorem weights_kept (c : Dev nD) : V3 (F := Ideal) m c main_arg2 = m ((c : Thread nD τ).loc main_arg2) :=
  (V3_of m c main_arg2 (by decide)).trans <| (V2_of m c main_arg2 (by decide)).trans <| (V1_of m c main_arg2 (by decide)).trans rfl

/-- The weights of the node's own term reach the first region as launched. -/
theorem bias_weights_kept (c : Dev nD) : V3 (F := Ideal) m c main_arg3 = m ((c : Thread nD τ).loc main_arg3) :=
  (V3_of m c main_arg3 (by decide)).trans <| (V2_of m c main_arg3 (by decide)).trans <| (V1_of m c main_arg3 (by decide)).trans rfl

end Cert.Val

end
-- ==== Proof.Val.RefLayer.lean ====
/-
  The reference program, read entry by entry over the extended reals, is the layer of the specification.

  The reference forms the dense adjacency `a` from the edge list, the in-degree of every node by adding a one for each
  edge that ends there, replaces a zero in-degree by one, and returns

      (a · (x·wᵀ)) / degree  +  x·bᵀ          (the quotient taken row by row).

  Two facts are proved here.  First, the degree so repaired is, at every node, a nonzero REAL number: a zero plus a
  finite sum of ones is the real number that counts them, and where that count is zero the comparison with zero picks
  the constant one instead.  Second, entry (r, c) of the result is the specification's layer entry whose row factor is
  the reciprocal `1 / degree r`: each of the three matrix products is, at an entry, the finite sum over its contracted
  coordinate (the transposes only exchange the two coordinates of the weights), and dividing by a nonzero real is
  multiplying by its reciprocal on every extended real.  The adjacency itself is never looked into: it stays the
  function of the edge list that the reference defines.
-/
import proofs.«115460_j79422535238375_1_alg».proof.Proof.RefReadP
import proofs.«115460_j79422535238375_1_alg».proof.Proof.Val.Spec
import Idealize.ShloMosaic.PureOps.Ideal.Laws
import Idealize.ShloMosaic.Lib.ValueIdx
import Idealize.ShloMosaic.Lib.Pipeline.Value

open scoped BigOperators

noncomputable section

namespace Cert.Val

open Cert.ReferenceIdeal Cert.ReferenceIdeal.ReadP Idealize.ShloMosaic Idealize.ShloMosaic.ValueIdx

/-- The single-precision pattern of 1.0 (exponent field 127, significand field 0) is the number one. -/
theorem one_f32 : Ideal.ofBits .f32 0x3F800000#32 = 1 := by
  simp [Ideal.ofBits, Ideal.ieee, -EReal.coe_mul]
  norm_num

/-- Choosing `1` where `t` compares equal to zero and `t` elsewhere is the plain case split on `t = 0`. -/
theorem one_where_zero (t : EReal) :
    Scalar.select (Ideal.cmp .oeq t 0) (1 : EReal) t = if t = 0 then 1 else t := by
  unfold Scalar.select Ideal.cmp
  by_cases h : t = 0 <;> simp [h]

/-- The in-degree of node `r`: zero plus a one for every edge whose target is `r`. -/
theorem indegree_is_count (e : (⟨S2x262144, .i32⟩ : BufTy).Contents (Elt Ideal)) (r : Fin 8192) :
    val_main_v23 (F := Ideal) e (ix1 r)
      = 0 + ∑ _j ∈ Finset.univ.filter (fun j => scatter_S8192_S262144x1_S262144_n_0_0_1.resultIdx? j (val_main_v22 (F := Ideal) e) = some (ix1 r)), (1 : EReal) := by
  unfold val_main_v23 Host.scatterAdd
  rw [Ideal.hostScatterAdd_def]
  unfold Ideal.hostScatterAdd
  rw [val_main_v21_apply, val_main_cst_5_apply, Ideal.ofBits_def, Ideal.ofBits_zero_f32]
  refine congrArg (0 + ·) (Finset.sum_congr rfl fun j _ => ?_)
  rw [val_main_v20_apply, val_main_cst_4_apply, Ideal.ofBits_def, one_f32]

/-- The in-degree with zero replaced by one is a nonzero real at every node. -/
theorem degree_real (e : (⟨S2x262144, .i32⟩ : BufTy).Contents (Elt Ideal)) (r : Fin 8192) :
    ∃ n : ℝ, n ≠ 0 ∧ val_main_v26 (F := Ideal) e (ix1 r) = (n : EReal) := by
  rw [val_main_v26_apply, val_main_v25_apply, val_main_call0_v1_apply, val_main_call0_v0_apply, val_main_cst_7_apply,
    val_main_v24_apply, val_main_cst_6_apply, indegree_is_count, Ideal.ofBits_def, Ideal.ofBits_def,
    Ideal.ofBits_zero_f32, one_f32, Ideal.cmpf_def, one_where_zero]
  exact Cert.Spec.count_or_one _

/-- Entry (k, c) of the reference's first product, the features against the transposed weights, is row `k` of the
    features against row `c` of the weights. -/
theorem features_by_weights (x : (⟨S8192x128, .f32⟩ : BufTy).Contents (Elt Ideal)) (w : (⟨S128x128, .f32⟩ : BufTy).Contents (Elt Ideal))
    (k : Fin 8192) (c : Fin 128) :
    val_main_v28 (F := Ideal) x w (ix2 k c) = Cert.Spec.rowDot x w k c := by
  rw [val_main_v28_apply]
  unfold Cert.Spec.rowDot
  refine Finset.sum_congr rfl fun j _ => ?_
  rw [val_main_v27_apply]
  have hl : lidx_main_v28 (ix2 k c) j = ix2 k j := funext fun a => match a with
    | ⟨0, _⟩ => rfl
    | ⟨1, _⟩ => rfl
  have hr : idx_main_v27 (ridx_main_v28 (ix2 k c) j) = ix2 c j := funext fun a => match a with
    | ⟨0, _⟩ => rfl
    | ⟨1, _⟩ => rfl
  rw [hl, hr]

/-- The same for the reference's last product, the features against the second transposed weights. -/
theorem features_by_bias_weights (x : (⟨S8192x128, .f32⟩ : BufTy).Contents (Elt Ideal)) (b : (⟨S128x128, .f32⟩ : BufTy).Contents (Elt Ideal))
    (k : Fin 8192) (c : Fin 128) :
    val_main_v34 (F := Ideal) x b (ix2 k c) = Cert.Spec.rowDot x b k c := by
  rw [val_main_v34_apply]
  unfold Cert.Spec.rowDot
  refine Finset.sum_congr rfl fun j _ => ?_
  rw [val_main_v33_apply]
  have hl : lidx_main_v34 (ix2 k c) j = ix2 k j := funext fun a => match a with
    | ⟨0, _⟩ => rfl
    | ⟨1, _⟩ => rfl
  have hr : idx_main_v33 (ridx_main_v34 (ix2 k c) j) = ix2 c j := funext fun a => match a with
    | ⟨0, _⟩ => rfl
    | ⟨1, _⟩ => rfl
  rw [hl, hr]

/-- The reference's result, entry (r, c), is the layer's entry with the row factor the reciprocal of the degree. -/
theorem ref_is_layer (x : (⟨S8192x128, .f32⟩ : BufTy).Contents (Elt Ideal)) (e : (⟨S2x262144, .i32⟩ : BufTy).Contents (Elt Ideal))
    (w b : (⟨S128x128, .f32⟩ : BufTy).Contents (Elt Ideal)) (r : Fin 8192) (c : Fin 128) :
    val_main_v35 (F := Ideal) x e w b (ix2 r c)
      = Cert.Spec.layer (val_main_v19 (F := Ideal) e) (fun r' => Ideal.div 1 (val_main_v26 (F := Ideal) e (ix1 r'))) x w b r c := by
  have hrow : idx_main_v30 (idx_main_v31 (ix2 r c)) = ix1 r := funext fun a => match a with
    | ⟨0, _⟩ => rfl
  have hsum : val_main_v29 (F := Ideal) x e w (ix2 r c)
      = ∑ k : Fin 8192, val_main_v19 (F := Ideal) e (ix2 r k) * Cert.Spec.rowDot x w k c := by
    rw [val_main_v29_apply]
    refine Finset.sum_congr rfl fun k _ => ?_
    have hl : lidx_main_v29 (ix2 r c) k = ix2 r k := funext fun a => match a with
      | ⟨0, _⟩ => rfl
      | ⟨1, _⟩ => rfl
    have hr : ridx_main_v29 (ix2 r c) k = ix2 k c := funext fun a => match a with
      | ⟨0, _⟩ => rfl
      | ⟨1, _⟩ => rfl
    rw [hl, hr, features_by_weights]
  unfold Cert.Spec.layer
  rw [val_main_v35_apply, val_main_v32_apply, val_main_v31_apply, val_main_v30_apply, Ideal.addf_def, Ideal.hostDivf_def,
    hrow, Cert.Spec.div_eq_mul_one_div _ (degree_real e r), hsum, features_by_bias_weights]

end Cert.Val

end
-- ==== Proof.Val.Bridge.lean ====
/-
  The kernel program's output array IS the reference's result, as functions of the four arguments.

  Entry (r, j) of what region 1 leaves is the layer's entry over the adjacency, the reciprocal-degree column, x, W and B
  that region 0 found (`out_entry`, with x·Wᵀ's entries from `xw_entry`). Those are the reference's own adjacency and
  corrected degree of the same edge list, and the arguments as launched (`adjacency_eq`, `degree_inv_eq`, `features_kept`,
  `weights_kept`, `bias_weights_kept`). The reference's result at (r, j) is the same layer's entry (`ref_is_layer`):
  its quotient by the degree is the product with the degree's reciprocal because the degree is a nonzero real.
-/
import proofs.«115460_j79422535238375_1_alg».proof.Proof.Val.XwValue
import proofs.«115460_j79422535238375_1_alg».proof.Proof.Val.OutValue
import proofs.«115460_j79422535238375_1_alg».proof.Proof.Val.HostArrays
import proofs.«115460_j79422535238375_1_alg».proof.Proof.Val.RefLayer

noncomputable section

namespace Cert.Val

open Cert.KernelIdeal Cert.KernelIdeal.Gen Cert.KernelIdeal.Hand
open Idealize.ShloMosaic Idealize.ShloMosaic.ValueIdx Idealize.ShloMosaic.TcCoe Idealize.SL.Sem

/-- What region 1 leaves in the output buffer is the reference's last stage at the launch contents of the four arguments. -/
theorem out_is_ref (m : (ℓ : Loc nD τ sig) → Buf (Elt Ideal) ℓ) (c : Dev nD) :
    (outArr (F := Ideal) m c : S8192x128.Idx → EReal)
      = Cert.ReferenceIdeal.ReadP.val_main_v35 (F := Ideal) (m ((c : Thread nD τ).loc main_arg0)) (m ((c : Thread nD τ).loc main_arg1))
          (m ((c : Thread nD τ).loc main_arg2)) (m ((c : Thread nD τ).loc main_arg3)) := by
  funext i
  obtain ⟨r, j, rfl⟩ : ∃ (r : Fin 8192) (j : Fin 128), i = ix2 r j := ⟨i 0, i 1, eq_ix2 i⟩
  rw [out_entry m c (xw_entry m c) r j, ref_is_layer]
  have hA : (entry0 m c main_v19 : S8192x8192.Idx → EReal)
      = Cert.ReferenceIdeal.ReadP.val_main_v19 (F := Ideal) (m ((c : Thread nD τ).loc main_arg1)) := adjacency_eq m c
  have hq : (fun r' : Fin 8192 => (entry0 m c main_v29 : S8192x1.Idx → EReal) (ix2 r' (0 : Fin 1)))
      = fun r' => Ideal.div 1 (Cert.ReferenceIdeal.ReadP.val_main_v26 (F := Ideal) (m ((c : Thread nD τ).loc main_arg1)) (ix1 r')) :=
    funext fun r' => degree_inv_eq m c r'
  have hx : entry0 m c main_arg0 = m ((c : Thread nD τ).loc main_arg0) := features_kept m c
  have hw : entry0 m c main_arg2 = m ((c : Thread nD τ).loc main_arg2) := weights_kept m c
  have hb : entry0 m c main_arg3 = m ((c : Thread nD τ).loc main_arg3) := bias_weights_kept m c
  rw [hA, hq, hx, hw, hb]

end Cert.Val

end
-- ==== Proof.lean ====
/-
  The certificate of the graph layer  out = D⁻¹ · A · (x · Wᵀ) + x · Bᵀ  computed by two Pallas kernels against its jnp
  reference, over the extended reals.

  The program builds the dense adjacency A and the in-degrees from the edge list on the host, exactly as the reference
  does, and then runs two kernels: region 0 multiplies x by Wᵀ in blocks of 1024 rows; region 1 walks a grid of 8 row
  blocks × 2 blocks of 4096 neighbours, accumulates A · (x·Wᵀ) over the two neighbour blocks in a scratch buffer, and at
  the second multiplies the sum by the reciprocal degree of each row and adds the row block of x · Bᵀ.

  Frames (both readings of the kernel program, word level and ideal): the generated conditional frame of the program, fed
  one record per kernel region (KI/Frame.lean and its word-level twin K/Frame.lean): each region's arrays are split out of
  the core's buffers, the region runs by the pipeline library from the body's triple at every grid point (KI/Bodies.lean,
  KI/Region0.lean, KI/Region1.lean: region 1's invariant says what the scratch accumulator holds after each point), and
  the arrays are put back. The reference is host operations only: its frame is its run.

  Equivalence: the ideal pass rewrote nothing, so `preserves` is trivial. For `algebraic`, both runs end with the result
  buffer at ONE function of the arguments: the kernel's output array, entry by entry, is the layer's entry
  (Val/XwValue.lean, Val/OutValue.lean: the sum over the 8192 neighbours reached in two halves), over the adjacency and
  degrees the host computed (Val/HostArrays.lean), and so is the reference's result (Val/RefLayer.lean): the reference
  divides by the degree where the kernel multiplies by its reciprocal, which agree on every extended real because the
  degree — a count with zero replaced by one — is a nonzero real. No finiteness of x, W, B is used.
-/
import proofs.«115460_j79422535238375_1_alg».proof.Defs
import proofs.«115460_j79422535238375_1_alg».proof.Proof.Gen.Kernel
import proofs.«115460_j79422535238375_1_alg».proof.Proof.Gen.KernelIdeal
import proofs.«115460_j79422535238375_1_alg».proof.Proof.Gen.ReferenceIdeal
import proofs.«115460_j79422535238375_1_alg».proof.Proof.Gen.Pre_finite_inputs
import proofs.«115460_j79422535238375_1_alg».proof.Proof.K.Frame
import proofs.«115460_j79422535238375_1_alg».proof.Proof.KI.Frame
import proofs.«115460_j79422535238375_1_alg».proof.Proof.KI.RunOut
import proofs.«115460_j79422535238375_1_alg».proof.Proof.RefRunP
import proofs.«115460_j79422535238375_1_alg».proof.Proof.Val.Bridge

noncomputable section

namespace Cert.Proof

open Idealize.ShloMosaic Idealize.ShloMosaic.TcCoe Idealize.SL.Sem

/-- The word-level kernel program runs to the end, faults nowhere and leaves its arguments as launched. -/
theorem frame_p : Cert.frame_Kernel := fun m ρ _ => Cert.Kernel.Hand.frame m ρ

/-- So does its reading over the extended reals. -/
theorem frame_pi : Cert.frame_KernelIdeal := fun m ρ _ => Cert.KernelIdeal.Hand.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs, from memories that agree on the arguments, end with the result buffer at the kernel's output array:
    the kernel by its run, the reference because its last stage is that array. -/
theorem algebraic : Cert.algebraic_KernelIdeal_ReferenceIdeal := by
  intro m ρ m' ρ' _ hagree
  refine ⟨fun c => Cert.KernelIdeal.Hand.outArr (F := Ideal) m c, Cert.KernelIdeal.Hand.run_out m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v35_eq, (hagree c).1, (hagree c).2.1, (hagree c).2.2.1, (hagree c).2.2.2]
  exact (Cert.Val.out_is_ref m c).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
